-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩

class Facts : Prop where
  bcast_S_S8x512x32 : S_.BroadcastsInDim S8x512x32 (![] : Fin 0 → Fin S8x512x32.rank)
  reducesTo_S8x512x32_S_d0_1_2 : S8x512x32.ReducesTo [0, 1, 2] S_
  h_S_ : 0 < S_.numel
  bcast_S_S128x128x32 : S_.BroadcastsInDim S128x128x32 (![] : Fin 0 → Fin S128x128x32.rank)
  reducesTo_S128x128x32_S_d0_1_2 : S128x128x32.ReducesTo [0, 1, 2] S_
  bcast_S_S8x768 : S_.BroadcastsInDim S8x768 (![] : Fin 0 → Fin S8x768.rank)
  reducesTo_S8x768_S_d0_1 : S8x768.ReducesTo [0, 1] S_
  bcast_S_S128x768 : S_.BroadcastsInDim S128x768 (![] : Fin 0 → Fin S128x768.rank)
  reducesTo_S128x768_S_d0_1 : S128x768.ReducesTo [0, 1] S_

variable [Facts]

def fn_part1 {F : FTy → Type} [FloatOps F] (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  main_v18

def fn {F : FTy → Type} [FloatOps F] (main_arg0 : FVec F S8x512x32 .f32) (main_arg1 : IVec S8x512 32) (main_arg2 : IVec S8x512 32) (main_arg3 : FVec F S128x128x32 .f32) (main_arg4 : IVec S128x128 32) (main_arg5 : FVec F S8x768 .f32) (main_arg6 : FVec F S128x768 .f32) : IVec S_ 1 :=
  let main_v0 : FVec F S8x512x32 .f32 := Host.absf main_arg0
  let main_cst : FVec F S_ .f32 := constant S_ .f32 0x7F800000#32
  let main_v1 : FVec F S8x512x32 .f32 := broadcastInDim S8x512x32 ![] bcast_S_S8x512x32 main_cst
  let main_v2 : IVec S8x512x32 1 := cmpf .olt main_v0 main_v1
  let main_c : IVec S_ 1 := constantI S_ 1 1#1
  let main_v3 : IVec S_ 1 := (fun x v => Host.reduce IntOp.andi x v reducesTo_S8x512x32_S_d0_1_2 h_S_) main_v2 main_c
  let main_v4 : FVec F S128x128x32 .f32 := Host.absf main_arg3
  let main_cst_0 : FVec F S_ .f32 := constant S_ .f32 0x7F800000#32
  let main_v5 : FVec F S128x128x32 .f32 := broadcastInDim S128x128x32 ![] bcast_S_S128x128x32 main_cst_0
  let main_v6 : IVec S128x128x32 1 := cmpf .olt main_v4 main_v5
  let main_c_1 : IVec S_ 1 := constantI S_ 1 1#1
  let main_v7 : IVec S_ 1 := (fun x v => Host.reduce IntOp.andi x v reducesTo_S128x128x32_S_d0_1_2 h_S_) main_v6 main_c_1
  let main_v8 : IVec S_ 1 := andi main_v3 main_v7
  let main_v9 : FVec F S8x768 .f32 := Host.absf main_arg5
  let main_cst_2 : FVec F S_ .f32 := constant S_ .f32 0x7F800000#32
  let main_v10 : FVec F S8x768 .f32 := broadcastInDim S8x768 ![] bcast_S_S8x768 main_cst_2
  let main_v11 : IVec S8x768 1 := cmpf .olt main_v9 main_v10
  let main_c_3 : IVec S_ 1 := constantI S_ 1 1#1
  let main_v12 : IVec S_ 1 := (fun x v => Host.reduce IntOp.andi x v reducesTo_S8x768_S_d0_1 h_S_) main_v11 main_c_3
  let main_v13 : IVec S_ 1 := andi main_v8 main_v12
  let main_v14 : FVec F S128x768 .f32 := Host.absf main_arg6
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_v13 main_v16
-- ==== Kernel.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩
abbrev S8 : Shape := ⟨1, ![8]⟩
abbrev S8x1 : Shape := ⟨2, ![8, 1]⟩
abbrev S8x2 : Shape := ⟨2, ![8, 2]⟩
abbrev S1 : Shape := ⟨1, ![1]⟩
abbrev S8x512x1 : Shape := ⟨3, ![8, 512, 1]⟩
abbrev S128x1x128 : Shape := ⟨3, ![128, 1, 128]⟩
abbrev S8x1x128 : Shape := ⟨3, ![8, 1, 128]⟩
abbrev S1x128x32 : Shape := ⟨3, ![1, 128, 32]⟩
abbrev S1x128x1 : Shape := ⟨3, ![1, 128, 1]⟩
abbrev S1x1x128 : Shape := ⟨3, ![1, 1, 128]⟩
abbrev S1x128 : Shape := ⟨2, ![1, 128]⟩
abbrev S128x32 : Shape := ⟨2, ![128, 32]⟩
abbrev S128x128x128 : Shape := ⟨3, ![128, 128, 128]⟩
abbrev S128x1 : Shape := ⟨2, ![128, 1]⟩
abbrev S128 : Shape := ⟨1, ![128]⟩
abbrev S8x128 : Shape := ⟨2, ![8, 128]⟩
abbrev S768x128 : Shape := ⟨2, ![768, 128]⟩

abbrev nBuf : Space → Nat
  | .hbm => 51
  | .vmem => 11
  | .smem => 0
  | _ => 0

abbrev bufTy : (tb : Table) → Fin (tcTables nBuf tb) → BufTy
  | .hbm, ⟨0, _⟩ => ⟨S8x512x32, .f32⟩
  | .hbm, ⟨1, _⟩ => ⟨S8x512, .i32⟩
  | .hbm, ⟨2, _⟩ => ⟨S8x512, .i32⟩
  | .hbm, ⟨3, _⟩ => ⟨S128x128x32, .f32⟩
  | .hbm, ⟨4, _⟩ => ⟨S128x128, .i32⟩
  | .hbm, ⟨5, _⟩ => ⟨S8x768, .f32⟩
  | .hbm, ⟨6, _⟩ => ⟨S128x768, .f32⟩
  | .hbm, ⟨7, _⟩ => ⟨S_, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x1, .i32⟩
  | .hbm, ⟨29, _⟩ => ⟨S8x2, .i32⟩
  | .hbm, ⟨30, _⟩ => ⟨S_, .i32⟩
  | .hbm, ⟨31, _⟩ => ⟨S8, .i32⟩
  | .hbm, ⟨32, _⟩ => ⟨S8x512, .i32⟩
  | .hbm, ⟨33, _⟩ => ⟨S8x512, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S8, .f32⟩
  | .hbm, ⟨38, _⟩ => ⟨S8x512, .f32⟩
  | .hbm, ⟨39, _⟩ => ⟨S8x512x32, .bf16⟩
  | .hbm, ⟨40, _⟩ => ⟨S128x128x32, .bf16⟩
  | .hbm, ⟨41, _⟩ => ⟨S8x512x1, .i32⟩
  | .hbm, ⟨42, _⟩ => ⟨S8x512x1, .f32⟩
  | .hbm, ⟨43, _⟩ => ⟨S128x1x128, .i32⟩
  | .hbm, ⟨44, _⟩ => ⟨S8x1x128, .f32⟩
  | .hbm, ⟨45, _⟩ => ⟨S8x128, .f32⟩
  | .hbm, ⟨46, _⟩ => ⟨S768x128, .f32⟩
  | .hbm, ⟨47, _⟩ => ⟨S8x128, .f32⟩
  | .hbm, ⟨48, _⟩ => ⟨S8x128, .f32⟩
  | .hbm, ⟨49, _⟩ => ⟨S_, .f32⟩
  | .hbm, ⟨50, _⟩ => ⟨S128, .f32⟩
  | .local _ .vmem, ⟨0, _⟩ => ⟨S1x128x32, .bf16⟩
  | .local _ .vmem, ⟨1, _⟩ => ⟨S1x128x32, .bf16⟩
  | .local _ .vmem, ⟨2, _⟩ => ⟨S1x128x1, .i32⟩
  | .local _ .vmem, ⟨3, _⟩ => ⟨S1x128x1, .i32⟩
  | .local _ .vmem, ⟨4, _⟩ => ⟨S1x128x1, .f32⟩
  | .local _ .vmem, ⟨5, _⟩ => ⟨S1x128x1, .f32⟩
  | .local _ .vmem, ⟨6, _⟩ => ⟨S128x128x32, .bf16⟩
  | .local _ .vmem, ⟨7, _⟩ => ⟨S128x1x128, .i32⟩
  | .local _ .vmem, ⟨8, _⟩ => ⟨S1x1x128, .f32⟩
  | .local _ .vmem, ⟨9, _⟩ => ⟨S1x1x128, .f32⟩
  | .local _ .vmem, ⟨10, _⟩ => ⟨S1x128, .f32⟩
  | _, _ => ⟨S8x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_21 : BitVec 32 := 0#32
  let v37 : BitVec 1 := Scalar.cmpi .ne v36 c0_i32_21
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8x512_S8_d1 : S8x512.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S_S1 : S_.BroadcastsInDim S1 (![] : Fin 0 → Fin S1.rank)
  bitsLt_bf16_f32 : FTy.bits .bf16 < FTy.bits .f32
  bcast_S8x512_S8x512x1_0_1 : S8x512.BroadcastsInDim S8x512x1 (![0, 1] : Fin 2 → Fin S8x512x1.rank)
  bcast_S128x128_S128x1x128_0_2 : S128x128.BroadcastsInDim S128x1x128 (![0, 2] : Fin 2 → Fin S128x1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S128x128x32_S128x128x32_0_0_0 : ∀ a, (![0, 0, 0] : Fin 3 → Nat) a + S128x128x32.size a ≤ S128x128x32.size a
  h_S128x128x32 : 0 < S128x128x32.numel
  shapeCasts_S128x128x32_S128x128x32 : S128x128x32.ShapeCasts S128x128x32
  shapeCasts_S128x32_S1x128x32 : S128x32.ShapeCasts S1x128x32
  shapeCasts_S1x128x32_S1x128x32 : S1x128x32.ShapeCasts S1x128x32
  broadcasts_S1x128x32_S128x128x32 : S1x128x32.Broadcasts S128x128x32
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S128x1x128_S128x1x128_0_0_0 : ∀ a, (![0, 0, 0] : Fin 3 → Nat) a + S128x1x128.size a ≤ S128x1x128.size a
  h_S128x1x128 : 0 < S128x1x128.numel
  shapeCasts_S128x1x128_S128x1x128 : S128x1x128.ShapeCasts S128x1x128
  shapeCasts_S128x1_S1x128x1 : S128x1.ShapeCasts S1x128x1
  broadcasts_S1x128x1_S128x128x128 : S1x128x1.Broadcasts S128x128x128
  broadcasts_S128x1x128_S128x128x128 : S128x1x128.Broadcasts S128x128x128
  natLt_1_32 : 1 < 32
  reduces_S128x128x128_S128x128 : S128x128x128.Reduces [2] S128x128
  shapeCasts_S128x1_S1x128 : S128x1.ShapeCasts S1x128
  broadcasts_S1x128_S128x128 : S1x128.Broadcasts S128x128
  reduces_S128x128_S128 : S128x128.Reduces [1] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S8x1x128_S8x128 : S8x1x128.ShapeCasts S8x128
  transposes_S128x768_S768x128_1_0 : S128x768.Transposes [1, 0] S768x128
  reducesTo_S8x128_S128_d0 : S8x128.ReducesTo [0] S128
  scatter_S8x512_S8x2_S8_n_01_01_1_wf : ScatterDims.WF S8x512 S8x2 S8 [] [0, 1] [0, 1] 1
  scatter_S8x512_S1_S8_0_1_1_0_wf : ScatterDims.WF S8x512 S1 S8 [0] [1] [1] 0
  dot_S128x128x32_S128x128x32_S128x128x128_2_2_1_1_0_0_wf : DotDims.WF S128x128x32 S128x128x32 S128x128x128 [2] [2] [1] [1] [0] [0]
  dot_S8x768_S768x128_S8x128_1_0_0_1_n_n_wf : DotDims.WF S8x768 S768x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32.size a ≤ S8x512x32.size a
  hwx0_0 : ∀ i : grid0.Coords, EltTy.bits .bf16 = 32 ∨ (Rect.block (s := S8x512x32) S1x128x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x512x1.size a
  hwx0_1 : ∀ i : grid0.Coords, EltTy.bits .i32 = 32 ∨ (Rect.block (s := S8x512x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x512x1.size a
  hwx0_2 : ∀ i : grid0.Coords, EltTy.bits .f32 = 32 ∨ (Rect.block (s := S8x512x1) S1x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128x32.size a ≤ S128x128x32.size a
  hwx0_3 : ∀ i : grid0.Coords, EltTy.bits .bf16 = 32 ∨ (Rect.block (s := S128x128x32) S128x128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1x128.size a ≤ S128x1x128.size a
  hwx0_4 : ∀ i : grid0.Coords, EltTy.bits .i32 = 32 ∨ (Rect.block (s := S128x1x128) S128x1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)

variable [Facts₀]

def scatter_S8x512_S8x2_S8_n_01_01_1 : ScatterDims S8x512 S8x2 S8 where
  updateWindowDims := []
  insertedWindowDims := [0, 1]
  scatterDimsToOperandDims := [0, 1]
  indexVectorDim := 1
  wf := scatter_S8x512_S8x2_S8_n_01_01_1_wf
def scatter_S8x512_S1_S8_0_1_1_0 : ScatterDims S8x512 S1 S8 where
  updateWindowDims := [0]
  insertedWindowDims := [1]
  scatterDimsToOperandDims := [1]
  indexVectorDim := 0
  wf := scatter_S8x512_S1_S8_0_1_1_0_wf
def dot_S128x128x32_S128x128x32_S128x128x128_2_2_1_1_0_0 : DotDims S128x128x32 S128x128x32 S128x128x128 where
  lhsContracting := [2]
  rhsContracting := [2]
  lhsNonContracting := [1]
  rhsNonContracting := [1]
  lhsBatch := [0]
  rhsBatch := [0]
  wf := dot_S128x128x32_S128x128x32_S128x128x128_2_2_1_1_0_0_wf
def dot_S8x768_S768x128_S8x128_1_0_0_1_n_n : DotDims S8x768 S768x128 S8x128 where
  lhsContracting := [1]
  rhsContracting := [0]
  lhsNonContracting := [0]
  rhsNonContracting := [1]
  lhsBatch := []
  rhsBatch := []
  wf := dot_S8x768_S768x128_S8x128_1_0_0_1_n_n_wf

abbrev win0_0 : Pipeline.Window sig grid0 :=
  Pipeline.Window.ofSpec (Memref.whole main_v23) S1x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩
abbrev S8 : Shape := ⟨1, ![8]⟩
abbrev S8x1 : Shape := ⟨2, ![8, 1]⟩
abbrev S8x2 : Shape := ⟨2, ![8, 2]⟩
abbrev S8x512x1x1 : Shape := ⟨4, ![8, 512, 1, 1]⟩
abbrev S1x1x128x128 : Shape := ⟨4, ![1, 1, 128, 128]⟩
abbrev S8x512x128x128 : Shape := ⟨4, ![8, 512, 128, 128]⟩
abbrev S8x512x128 : Shape := ⟨3, ![8, 512, 128]⟩
abbrev S8x512x1 : Shape := ⟨3, ![8, 512, 1]⟩
abbrev S8x511x128 : Shape := ⟨3, ![8, 511, 128]⟩
abbrev S8x128 : Shape := ⟨2, ![8, 128]⟩
abbrev S768x128 : Shape := ⟨2, ![768, 128]⟩
abbrev S128 : Shape := ⟨1, ![128]⟩

abbrev nBuf : Space → Nat
  | .hbm => 55
  | .vmem => 0
  | .smem => 0
  | _ => 0

abbrev bufTy : (tb : Table) → Fin (tcTables nBuf tb) → BufTy
  | .hbm, ⟨0, _⟩ => ⟨S8x512x32, .f32⟩
  | .hbm, ⟨1, _⟩ => ⟨S8x512, .i32⟩
  | .hbm, ⟨2, _⟩ => ⟨S8x512, .i32⟩
  | .hbm, ⟨3, _⟩ => ⟨S128x128x32, .f32⟩
  | .hbm, ⟨4, _⟩ => ⟨S128x128, .i32⟩
  | .hbm, ⟨5, _⟩ => ⟨S8x768, .f32⟩
  | .hbm, ⟨6, _⟩ => ⟨S128x768, .f32⟩
  | .hbm, ⟨7, _⟩ => ⟨S_, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x1, .i32⟩
  | .hbm, ⟨29, _⟩ => ⟨S8x2, .i32⟩
  | .hbm, ⟨30, _⟩ => ⟨S_, .i32⟩
  | .hbm, ⟨31, _⟩ => ⟨S8, .i32⟩
  | .hbm, ⟨32, _⟩ => ⟨S8x512, .i32⟩
  | .hbm, ⟨33, _⟩ => ⟨S8x512x1x1, .i32⟩
  | .hbm, ⟨34, _⟩ => ⟨S1x1x128x128, .i32⟩
  | .hbm, ⟨35, _⟩ => ⟨S8x512x128x128, .i32⟩
  | .hbm, ⟨36, _⟩ => ⟨S8x512x128x128, .i32⟩
  | .hbm, ⟨37, _⟩ => ⟨S8x512x128x128, .i1⟩
  | .hbm, ⟨38, _⟩ => ⟨S8x512x128x128, .f32⟩
  | .hbm, ⟨39, _⟩ => ⟨S8x512x128x128, .f32⟩
  | .hbm, ⟨40, _⟩ => ⟨S8x512x128x128, .f32⟩
  | .hbm, ⟨41, _⟩ => ⟨S_, .f32⟩
  | .hbm, ⟨42, _⟩ => ⟨S8x512x128, .f32⟩
  | .hbm, ⟨43, _⟩ => ⟨S8x512, .f32⟩
  | .hbm, ⟨44, _⟩ => ⟨S8x512x1, .f32⟩
  | .hbm, ⟨45, _⟩ => ⟨S8x512x128, .f32⟩
  | .hbm, ⟨46, _⟩ => ⟨S8x512x128, .f32⟩
  | .hbm, ⟨47, _⟩ => ⟨S8x511x128, .f32⟩
  | .hbm, ⟨48, _⟩ => ⟨S_, .f32⟩
  | .hbm, ⟨49, _⟩ => ⟨S8x128, .f32⟩
  | .hbm, ⟨50, _⟩ => ⟨S768x128, .f32⟩
  | .hbm, ⟨51, _⟩ => ⟨S8x128, .f32⟩
  | .hbm, ⟨52, _⟩ => ⟨S8x128, .f32⟩
  | .hbm, ⟨53, _⟩ => ⟨S_, .f32⟩
  | .hbm, ⟨54, _⟩ => ⟨S128, .f32⟩
  | _, _ => ⟨S8x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  reducesTo_S8x512_S8_d1 : S8x512.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S8x512_S8x512x1x1_0_1 : S8x512.BroadcastsInDim S8x512x1x1 (![0, 1] : Fin 2 → Fin S8x512x1x1.rank)
  bcast_S128x128_S1x1x128x128_2_3 : S128x128.BroadcastsInDim S1x1x128x128 (![2, 3] : Fin 2 → Fin S1x1x128x128.rank)
  bcast_S8x512x1x1_S8x512x128x128_0_1_2_3 : S8x512x1x1.BroadcastsInDim S8x512x128x128 (![0, 1, 2, 3] : Fin 4 → Fin S8x512x128x128.rank)
  bcast_S1x1x128x128_S8x512x128x128_0_1_2_3 : S1x1x128x128.BroadcastsInDim S8x512x128x128 (![0, 1, 2, 3] : Fin 4 → Fin S8x512x128x128.rank)
  reducesTo_S8x512x128x128_S8x512x128_d3 : S8x512x128x128.ReducesTo [3] S8x512x128
  bcast_S8x512_S8x512x1_0_1 : S8x512.BroadcastsInDim S8x512x1 (![0, 1] : Fin 2 → Fin S8x512x1.rank)
  bcast_S8x512x1_S8x512x128_0_1_2 : S8x512x1.BroadcastsInDim S8x512x128 (![0, 1, 2] : Fin 3 → Fin S8x512x128.rank)
  slices_S8x512x128_S8x511x128_0_1_0 : S8x512x128.Slices ![0, 1, 0] S8x511x128
  reducesTo_S8x511x128_S8x128_d1 : S8x511x128.ReducesTo [1] S8x128
  transposes_S128x768_S768x128_1_0 : S128x768.Transposes [1, 0] S768x128
  reducesTo_S8x128_S128_d0 : S8x128.ReducesTo [0] S128
  scatter_S8x512_S8x2_S8_n_01_01_1_wf : ScatterDims.WF S8x512 S8x2 S8 [] [0, 1] [0, 1] 1
  dot_S8x512x32_S128x128x32_S8x512x128x128_2_2_01_01_n_n_wf : DotDims.WF S8x512x32 S128x128x32 S8x512x128x128 [2] [2] [0, 1] [0, 1] [] []
  dot_S8x768_S768x128_S8x128_1_0_0_1_n_n_wf : DotDims.WF S8x768 S768x128 S8x128 [1] [0] [0] [1] [] []

variable [Facts₀]

def scatter_S8x512_S8x2_S8_n_01_01_1 : ScatterDims S8x512 S8x2 S8 where
  updateWindowDims := []
  insertedWindowDims := [0, 1]
  scatterDimsToOperandDims := [0, 1]
  indexVectorDim := 1
  wf := scatter_S8x512_S8x2_S8_n_01_01_1_wf
def dot_S8x512x32_S128x128x32_S8x512x128x128_2_2_01_01_n_n : DotDims S8x512x32 S128x128x32 S8x512x128x128 where
  lhsContracting := [2]
  rhsContracting := [2]
  lhsNonContracting := [0, 1]
  rhsNonContracting := [0, 1]
  lhsBatch := []
  rhsBatch := []
  wf := dot_S8x512x32_S128x128x32_S8x512x128x128_2_2_01_01_n_n_wf
def dot_S8x768_S768x128_S8x128_1_0_0_1_n_n : DotDims S8x768 S768x128 S8x128 where
  lhsContracting := [1]
  rhsContracting := [0]
  lhsNonContracting := [0]
  rhsNonContracting := [1]
  lhsBatch := []
  rhsBatch := []
  wf := dot_S8x768_S768x128_S8x128_1_0_0_1_n_n_wf

class Facts : Prop extends Facts₀ where

variable [Facts]
-- ==== Proof.Spec.lean ====
/-
  The token-match score as plain functions on the extended reals, and the one law that joins its two spellings.

  For a query `q`, a query token `s`, a document `b` and a document token `t`, the similarity is the inner product of
  the two token vectors, kept only where the two token ids are equal (`sim`). A query token's score against a document
  is the largest similarity over the document's tokens (`tokMax`). A query's score against a document is the sum of its
  tokens' scores, each weighted by the token's attention weight, the first token (the class token) left out.

  One spelling sums over the tokens `1 … 511` directly (`refT`). The other walks the query's 512 tokens in four blocks of
  128, adds each block's weighted sum to an accumulator that starts at zero (`accum`), and leaves the first token in with
  weight zero. They agree because a product with zero is zero on every extended real, and sums of extended reals may be
  regrouped freely (`accum_three_eq_refT`).
-/
import Idealize.ShloMosaic.PureOps.Ideal.Laws
import Idealize.ShloMosaic.Lib.ValueIdx

noncomputable section

namespace Cert.TokScore

open Idealize.ShloMosaic Idealize.ShloMosaic.ValueIdx

/-- The query token that block `j` (of four blocks of 128 tokens) holds at its local position `r`. -/
def row (j : Fin 4) (r : Fin 128) : Fin 512 := ⟨128 * j.val + r.val, by omega⟩

/-- The query token after the class token: `1 + k`. -/
def rowSucc (k : Fin 511) : Fin 512 := ⟨1 + k.val, by omega⟩

/-- Equal token ids count one, different ones zero. -/
def hit (a b : BitVec 32) : EReal := (((IntOp.cmpi .eq a b).toNat : ℝ) : EReal)

/-- The float zero word is the extended real zero. -/
theorem zero_word : (FloatOps.ofBits (F := Ideal) .f32 0x00000000#32 : EReal) = 0 := Ideal.ofBits_zero_f32

section

variable (A0 : (⟨3, ![8, 512, 32]⟩ : Shape).Idx → EReal) (A1 : (⟨2, ![8, 512]⟩ : Shape).Idx → BitVec 32)
  (A3 : (⟨3, ![128, 128, 32]⟩ : Shape).Idx → EReal) (A4 : (⟨2, ![128, 128]⟩ : Shape).Idx → BitVec 32)

/-- Similarity of query token `(q, s)` and document token `(b, t)`: their inner product where the ids match, else zero. -/
def sim (q : Fin 8) (s : Fin 512) (b t : Fin 128) : EReal :=
  (∑ d : Fin 32, A0 (ix3 q s d) * A3 (ix3 b t d)) * hit (A1 (ix2 q s)) (A4 (ix2 b t))

/-- The best similarity of query token `(q, s)` over the tokens of document `b`, from the float `-∞` word. -/
def tokMax (q : Fin 8) (s : Fin 512) (b : Fin 128) : EReal :=
  (Finset.univ : Finset (Fin 128)).fold max (FloatOps.ofBits (F := Ideal) .f32 0xFF800000#32) (fun t => sim A0 A1 A3 A4 q s b t)

/-- A query token's weighted score. -/
def term (W : (⟨2, ![8, 512]⟩ : Shape).Idx → EReal) (q : Fin 8) (b : Fin 128) (s : Fin 512) : EReal :=
  tokMax A0 A1 A3 A4 q s b * W (ix2 q s)

/-- The direct spelling: from the float zero word, the weighted scores of tokens `1 … 511`. -/
def refT (W : (⟨2, ![8, 512]⟩ : Shape).Idx → EReal) (q : Fin 8) (b : Fin 128) : EReal :=
  FloatOps.ofBits (F := Ideal) .f32 0x00000000#32 + ∑ k : Fin 511, term A0 A1 A3 A4 W q b (rowSucc k)

/-- One block's weighted sum. -/
def blockSum (W : (⟨2, ![8, 512]⟩ : Shape).Idx → EReal) (q : Fin 8) (b : Fin 128) (j : Fin 4) : EReal :=
  ∑ r : Fin 128, term A0 A1 A3 A4 W q b (row j r)

/-- The accumulator after block `j`: it starts at the float zero word and takes one block's sum per step. -/
def accum (W : (⟨2, ![8, 512]⟩ : Shape).Idx → EReal) (q : Fin 8) (b : Fin 128) : (j : ℕ) → j < 4 → EReal
  | 0, h => FloatOps.ofBits (F := Ideal) .f32 0x00000000#32 + blockSum A0 A1 A3 A4 W q b ⟨0, h⟩
  | j + 1, h => accum W q b j (Nat.lt_of_succ_lt h) + blockSum A0 A1 A3 A4 W q b ⟨j + 1, h⟩

theorem accum_zero (W : (⟨2, ![8, 512]⟩ : Shape).Idx → EReal) (q : Fin 8) (b : Fin 128) (h : 0 < 4) :
    accum A0 A1 A3 A4 W q b 0 h = FloatOps.ofBits (F := Ideal) .f32 0x00000000#32 + blockSum A0 A1 A3 A4 W q b ⟨0, h⟩ := rfl

/-- The accumulator depends on the block number only through its value. -/
theorem accum_congr (W : (⟨2, ![8, 512]⟩ : Shape).Idx → EReal) (q : Fin 8) (b : Fin 128) {j j' : ℕ} (e : j = j') (h : j < 4)
    (h' : j' < 4) : accum A0 A1 A3 A4 W q b j h = accum A0 A1 A3 A4 W q b j' h' := by
  subst e; rfl

theorem accum_succ (W : (⟨2, ![8, 512]⟩ : Shape).Idx → EReal) (q : Fin 8) (b : Fin 128) (j : ℕ) (h : j + 1 < 4) :
    accum A0 A1 A3 A4 W q b (j + 1) h
      = accum A0 A1 A3 A4 W q b j (Nat.lt_of_succ_lt h) + blockSum A0 A1 A3 A4 W q b ⟨j + 1, h⟩ := rfl

end

/-- A sum over the 512 tokens, taken block by block. -/
theorem sum_rows (f : Fin 512 → EReal) : ∑ s, f s = ∑ j : Fin 4, ∑ r : Fin 128, f (row j r) := by
  have e : ∑ s : Fin 512, f s = ∑ p : Fin 4 × Fin 128, f (finProdFinEquiv p) :=
    (Equiv.sum_comp (finProdFinEquiv : Fin 4 × Fin 128 ≃ Fin (4 * 128)) f).symm
  rw [e, Fintype.sum_prod_type]
  refine Finset.sum_congr rfl fun j _ => Finset.sum_congr rfl fun r _ => congrArg f (Fin.ext ?_)
  show r.val + 128 * j.val = 128 * j.val + r.val
  omega

/-- A sum over the 512 tokens: the class token's term and the other 511. -/
theorem sum_first (f : Fin 512 → EReal) : ∑ s, f s = f 0 + ∑ k : Fin 511, f (rowSucc k) := by
  rw [Fin.sum_univ_succ (n := 511)]
  refine congrArg (f 0 + ·) (Finset.sum_congr rfl fun k _ => congrArg f (Fin.ext ?_))
  show k.val + 1 = 1 + k.val
  omega

section

variable (A0 : (⟨3, ![8, 512, 32]⟩ : Shape).Idx → EReal) (A1 : (⟨2, ![8, 512]⟩ : Shape).Idx → BitVec 32)
  (A3 : (⟨3, ![128, 128, 32]⟩ : Shape).Idx → EReal) (A4 : (⟨2, ![128, 128]⟩ : Shape).Idx → BitVec 32)

/-- THE LAW. With the class token's weight zero and the other weights kept, the accumulator after the four blocks is the
    direct sum over tokens `1 … 511`: the class token's term is a product with zero, hence zero, and the rest is a
    regrouping of one finite sum. -/
theorem accum_three_eq_refT (W W' : (⟨2, ![8, 512]⟩ : Shape).Idx → EReal)
    (h0 : ∀ q : Fin 8, W' (ix2 q (0 : Fin 512)) = 0)
    (h1 : ∀ (q : Fin 8) (s : Fin 512), s ≠ 0 → W' (ix2 q s) = W (ix2 q s)) (q : Fin 8) (b : Fin 128) :
    accum A0 A1 A3 A4 W' q b 3 (by omega) = refT A0 A1 A3 A4 W q b := by
  have hs : ∑ j : Fin 4, blockSum A0 A1 A3 A4 W' q b j = ∑ k : Fin 511, term A0 A1 A3 A4 W q b (rowSucc k) := by
    unfold blockSum
    rw [← sum_rows (term A0 A1 A3 A4 W' q b), sum_first]
    have hz : term A0 A1 A3 A4 W' q b 0 = 0 := by unfold term; rw [h0, mul_zero]
    rw [hz, zero_add]
    refine Finset.sum_congr rfl fun k _ => ?_
    unfold term
    rw [h1 q (rowSucc k) (fun h => by have := congrArg Fin.val h; simp [rowSucc] at this)]
  rw [accum_succ, accum_succ, accum_succ, accum_zero]
  unfold refT
  rw [← hs, Fin.sum_univ_four]
  simp only [add_assoc]
  rfl

end

/-! ## Writing one value at chosen places, in a fold -/

section Fold

variable {ι I α : Type} [DecidableEq I]

/-- A left fold whose every step either overwrites place `i'` with the same value `c` (when the step's target `g n` is `i'`)
    or leaves it alone: afterwards place `i'` holds `c` if some step targeted it, else what it held at the start. -/
theorem foldl_write_apply (g : ι → Option I) (step : (I → α) → ι → (I → α)) (i' : I) (c : α)
    (hhit : ∀ r n, g n = some i' → step r n i' = c) (hmiss : ∀ r n, g n ≠ some i' → step r n i' = r i')
    (l : List ι) (x : I → α) :
    l.foldl step x i' = if ∃ n ∈ l, g n = some i' then c else x i' := by
  induction l generalizing x with
  | nil => simp
  | cons a l ih =>
    rw [List.foldl_cons, ih]
    by_cases ha : g a = some i'
    · have h1 : ∃ n ∈ a :: l, g n = some i' := ⟨a, List.mem_cons_self, ha⟩
      rw [if_pos h1]
      split
      · rfl
      · exact hhit x a ha
    · by_cases hl : ∃ n ∈ l, g n = some i'
      · obtain ⟨n, hn, hg⟩ := hl
        rw [if_pos ⟨n, hn, hg⟩, if_pos ⟨n, List.mem_cons_of_mem _ hn, hg⟩]
      · rw [if_neg hl, hmiss x a ha, if_neg]
        rintro ⟨n, hn, hg⟩
        rcases List.mem_cons.1 hn with rfl | hn'
        · exact ha hg
        · exact hl ⟨n, hn', hg⟩

end Fold

/-! ## A one-bit word as a number -/

/-- A one-bit word widened to 32 bits and read signed is the bit read unsigned. -/
theorem toInt_setWidth_one (b : BitVec 1) : ((b.setWidth 32).toInt : ℝ) = (b.toNat : ℝ) := by
  have h : ∀ b : BitVec 1, (b.setWidth 32).toInt = (b.toNat : Int) := by decide
  rw [h b]; simp

end Cert.TokScore

end
-- ==== Proof.RefSide.lean ====
/-
  The reference's token scores, read at an index: the direct sum over tokens 1 … 511.
-/
import proofs.«136248_j62319975465252_1_alg».proof.Proof.RefRead
import proofs.«136248_j62319975465252_1_alg».proof.Proof.Spec
import Idealize.ShloMosaic.Lib.ValueIdx
import Idealize.ShloMosaic.Lib.Pipeline.Value
import Idealize.ShloMosaic.PureOps.Ideal.Laws

noncomputable section

namespace Cert.TokRef

open Cert.ReferenceIdeal Cert.ReferenceIdeal.Gen Cert.ReferenceIdeal.ReadP Idealize.ShloMosaic Idealize.ShloMosaic.ValueIdx

/-- The masked similarity array read at `(q, s, b, t)`: the inner product of the two token vectors times the id match. -/
theorem v26_apply (x0 : (⟨S8x512x32, .f32⟩ : BufTy).Contents (Elt Ideal)) (x1 : (⟨S8x512, .i32⟩ : BufTy).Contents (Elt Ideal))
    (x3 : (⟨S128x128x32, .f32⟩ : BufTy).Contents (Elt Ideal)) (x4 : (⟨S128x128, .i32⟩ : BufTy).Contents (Elt Ideal))
    (q : Fin 8) (s : Fin 512) (b t : Fin 128) :
    val_main_v26 (F := Ideal) x0 x1 x3 x4 (ix4 q s b t) = TokScore.sim x0 x1 x3 x4 q s b t := by
  have e1 : idx_main_v19 (idx_main_v21 (ix4 q s b t)) = ix2 q s :=
    funext fun a => Fin.ext (by match a with | ⟨0, _⟩ => rfl | ⟨1, _⟩ => rfl)
  have e4 : idx_main_v20 (idx_main_v22 (ix4 q s b t)) = ix2 b t :=
    funext fun a => Fin.ext (by match a with | ⟨0, _⟩ => rfl | ⟨1, _⟩ => rfl)
  have el : ∀ k : Fin 32, lidx_main_v25 (ix4 q s b t) k = ix3 q s k := fun k =>
    funext fun a => Fin.ext (by match a with | ⟨0, _⟩ => rfl | ⟨1, _⟩ => rfl | ⟨2, _⟩ => rfl)
  have er : ∀ k : Fin 32, ridx_main_v25 (ix4 q s b t) k = ix3 b t k := fun k =>
    funext fun a => Fin.ext (by match a with | ⟨0, _⟩ => rfl | ⟨1, _⟩ => rfl | ⟨2, _⟩ => rfl)
  rw [val_main_v26_apply, val_main_v25_apply, val_main_v24_apply, val_main_v23_apply, val_main_v21_apply,
    val_main_v19_apply, val_main_v22_apply, val_main_v20_apply, e1, e4, Ideal.mulf_def]
  simp only [el, er]
  rfl

/-- The reduction's witness at the literal shapes: dropping the last axis of `8 × 512 × 128 × 128`. -/
theorem reduces_d3 : S8x512x128x128.Reduces [3] S8x512x128 := by decide

/-- Inserting `t` on the dropped axis over `(q, s, b)` gives `(q, s, b, t)`. -/
theorem lift_d3 (q : Fin 8) (s : Fin 512) (b t : Fin 128) : reduces_d3.lift (ix3 q s b) t = ix4 q s b t :=
  funext fun a => Fin.ext (by match a with | ⟨0, _⟩ => rfl | ⟨1, _⟩ => rfl | ⟨2, _⟩ => rfl | ⟨3, _⟩ => rfl)

/-- A query token's best similarity over a document's tokens: the maximum-reduction read at `(q, s, b)` is the fold of
    `max` from the `-∞` word over the document's 128 tokens. -/
theorem v27_apply (x0 : (⟨S8x512x32, .f32⟩ : BufTy).Contents (Elt Ideal)) (x1 : (⟨S8x512, .i32⟩ : BufTy).Contents (Elt Ideal))
    (x3 : (⟨S128x128x32, .f32⟩ : BufTy).Contents (Elt Ideal)) (x4 : (⟨S128x128, .i32⟩ : BufTy).Contents (Elt Ideal))
    (q : Fin 8) (s : Fin 512) (b : Fin 128) :
    val_main_v27 (F := Ideal) x0 x1 x3 x4 (ix3 q s b)
      = (Finset.univ : Finset (Fin 128)).fold max (FloatOps.ofBits (F := Ideal) .f32 0xFF800000#32)
          (fun t => TokScore.sim x0 x1 x3 x4 q s b t) := by
  have hf : (val_main_v26 (F := Ideal) x0 x1 x3 x4 ∘ reduces_d3.lift (ix3 q s b))
      = fun t => TokScore.sim x0 x1 x3 x4 q s b t := by
    refine funext fun (t : Fin 128) => ?_
    exact (congrArg (val_main_v26 (F := Ideal) x0 x1 x3 x4) (lift_d3 q s b t)).trans (v26_apply x0 x1 x3 x4 q s b t)
  unfold val_main_v27
  rw [Host.reduce_eq_fold_single (FloatOps.maximumf (F := Ideal)) _ _ reducesTo_S8x512x128x128_S8x512x128_d3
    reduces_d3 h_S_, hf, val_main_cst_apply]
  rfl

/-- One token's weighted score: the sliced product read at `(q, k, b)` is token `1 + k`'s best similarity times its weight. -/
theorem v32_apply (x0 : (⟨S8x512x32, .f32⟩ : BufTy).Contents (Elt Ideal)) (x1 x2 : (⟨S8x512, .i32⟩ : BufTy).Contents (Elt Ideal))
    (x3 : (⟨S128x128x32, .f32⟩ : BufTy).Contents (Elt Ideal)) (x4 : (⟨S128x128, .i32⟩ : BufTy).Contents (Elt Ideal))
    (q : Fin 8) (b : Fin 128) (k : Fin 511) :
    val_main_v32 (F := Ideal) x0 x1 x2 x3 x4 (idx_main_v33 (ix2 q b) k)
      = TokScore.term x0 x1 x3 x4 (val_main_v28 (F := Ideal) x2) q b (TokScore.rowSucc k) := by
  have ei : idx_main_v32 (idx_main_v33 (ix2 q b) k) = ix3 q (TokScore.rowSucc k) b :=
    funext fun a => Fin.ext (by match a with | ⟨0, _⟩ => rfl | ⟨1, _⟩ => rfl | ⟨2, _⟩ => rfl)
  have ew : idx_main_v29 (idx_main_v30 (ix3 q (TokScore.rowSucc k) b)) = ix2 q (TokScore.rowSucc k) :=
    funext fun a => Fin.ext (by match a with | ⟨0, _⟩ => rfl | ⟨1, _⟩ => rfl)
  rw [val_main_v32_apply, ei, val_main_v31_apply, v27_apply, val_main_v30_apply, val_main_v29_apply, ew, Ideal.mulf_def]
  rfl

/-- The reference's token score at `(q, b)`: from the float zero word, the weighted best similarities of tokens `1 … 511`. -/
theorem tok_eq (x0 : (⟨S8x512x32, .f32⟩ : BufTy).Contents (Elt Ideal)) (x1 x2 : (⟨S8x512, .i32⟩ : BufTy).Contents (Elt Ideal))
    (x3 : (⟨S128x128x32, .f32⟩ : BufTy).Contents (Elt Ideal)) (x4 : (⟨S128x128, .i32⟩ : BufTy).Contents (Elt Ideal))
    (q : Fin 8) (b : Fin 128) :
    val_main_v33 (F := Ideal) x0 x1 x2 x3 x4 (ix2 q b)
      = TokScore.refT x0 x1 x3 x4 (val_main_v28 (F := Ideal) x2) q b := by
  rw [val_main_v33_apply, val_main_cst_6_apply]
  unfold TokScore.refT
  exact congrArg (_ + ·) (Finset.sum_congr rfl fun k _ => v32_apply x0 x1 x2 x3 x4 q b k)

end Cert.TokRef

end
-- ==== Proof.Pieces.lean ====
/-
  What each control case of the body leaves in the accumulator and in the output block, as the body's named terms.
-/
import proofs.«136248_j62319975465252_1_alg».proof.Proof.Gen.KernelIdeal.Frame
import Idealize.ShloMosaic.Lib.Pipeline.Value
import Idealize.ShloMosaic.Lib.Tactic

noncomputable section

namespace Cert.TokKernel

open Cert.KernelIdeal Cert.KernelIdeal.Gen Idealize.ShloMosaic Idealize.ShloMosaic.TcCoe Idealize.SL.Sem

variable {F : FTy → Type} [FloatOps F]

/-- The rank-2 zero offset, as the constant function. -/
private theorem hz2 : (![0, 0] : Fin 2 → Nat) = fun _ => 0 := funext fun a => by fin_cases a <;> rfl

/-- The rank-3 zero offset, as the constant function. -/
private theorem hz3 : (![0, 0, 0] : Fin 3 → Nat) = fun _ => 0 := funext fun a => by fin_cases a <;> rfl

/-- Case A (first point of a row: reset taken, no output): the accumulator is zeroed, read back, and left at the
    zero splat plus this step's partial sum. -/
theorem sout_A (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S128x128x32 .bf16) (harg5 : arg5.IsWhole) (arg6 : Memref sig .tc .vmem S128x1x128 .i32) (harg6 : arg6.IsWhole) (arg7 : Memref sig .tc .vmem S1x1x128 .f32) (harg7 : arg7.IsWhole) (arg8 : Memref sig .tc .vmem S1x128 .f32) (harg8 : arg8.IsWhole) (hc0 : cond0_0 i) (hc1 : ¬cond0_1 i)
    (x0 : Vec F S1x128x32 .bf16) (x1 : Vec F S1x128x1 .i32) (x2 : Vec F S1x128x1 .f32) (x3 : Vec F S128x128x32 .bf16) (x4 : Vec F S128x1x128 .i32) :
    sout0_A_0 c i arg2 harg2 arg3 harg3 arg4 harg4 arg5 harg5 arg6 harg6 arg7 harg7 arg8 harg8 hc0 hc1 x0 x1 x2 x3 x4
      = k0_pay1 (k0_pay4 x0 x3 x1 x4 x2 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    harg6.read_unread, View.ld_unit_zero (S := S1x128x32) hz3,
    View.ld_unit_zero (S := S128x128x32) hz3, View.ld_unit_zero (S := S1x128x1) hz3,
    View.ld_unit_zero (S := S128x1x128) hz3]

/-- Case B (interior point: neither branch taken): the accumulator holding `xs0` is left at `xs0` plus this step's
    partial sum. -/
theorem sout_B (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S128x128x32 .bf16) (harg5 : arg5.IsWhole) (arg6 : Memref sig .tc .vmem S128x1x128 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : ¬cond0_1 i)
    (x0 : Vec F S1x128x32 .bf16) (x1 : Vec F S1x128x1 .i32) (x2 : Vec F S1x128x1 .f32) (x3 : Vec F S128x128x32 .bf16) (x4 : Vec F S128x1x128 .i32) (xs0 : Vec F S1x128 .f32) :
    sout0_B_0 c i arg2 harg2 arg3 harg3 arg4 harg4 arg5 harg5 arg6 harg6 arg7 harg7 arg8 harg8 hc0 hc1 x0 x1 x2 x3 x4 xs0
      = k0_pay1 (k0_pay4 x0 x3 x1 x4 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread,
    harg6.read_unread, harg8.read_unread, View.ld_unit_zero (S := S1x128x32) hz3,
    View.ld_unit_zero (S := S128x128x32) hz3, View.ld_unit_zero (S := S1x128x1) hz3,
    View.ld_unit_zero (S := S128x1x128) hz3, View.ld_unit_zero (S := S1x128) hz2]

/-- Case C (last point of a row: output taken), the accumulator: as in case B, `xs0` plus this step's partial sum. -/
theorem sout_C (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S128x128x32 .bf16) (harg5 : arg5.IsWhole) (arg6 : Memref sig .tc .vmem S128x1x128 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i)
    (x0 : Vec F S1x128x32 .bf16) (x1 : Vec F S1x128x1 .i32) (x2 : Vec F S1x128x1 .f32) (x3 : Vec F S128x128x32 .bf16) (x4 : Vec F S128x1x128 .i32) (xs0 : Vec F S1x128 .f32) :
    sout0_C_0 c i arg2 harg2 arg3 harg3 arg4 harg4 arg5 harg5 arg6 harg6 arg7 harg7 arg8 harg8 hc0 hc1 x0 x1 x2 x3 x4 xs0
      = k0_pay1 (k0_pay4 x0 x3 x1 x4 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread,
    harg6.read_unread, harg8.read_unread, View.ld_unit_zero (S := S1x128x32) hz3,
    View.ld_unit_zero (S := S128x128x32) hz3, View.ld_unit_zero (S := S1x128x1) hz3,
    View.ld_unit_zero (S := S128x1x128) hz3, View.ld_unit_zero (S := S1x128) hz2]

/-- Case C, the output block: the accumulator just stored is read back and written out re-shaped [1,128] → [1,1,128]. -/
theorem out_C (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S128x128x32 .bf16) (harg5 : arg5.IsWhole) (arg6 : Memref sig .tc .vmem S128x1x128 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i)
    (x0 : Vec F S1x128x32 .bf16) (x1 : Vec F S1x128x1 .i32) (x2 : Vec F S1x128x1 .f32) (x3 : Vec F S128x128x32 .bf16) (x4 : Vec F S128x1x128 .i32) (xs0 : Vec F S1x128 .f32) :
    out0_C_5 c i arg2 harg2 arg3 harg3 arg4 harg4 arg5 harg5 arg6 harg6 arg7 harg7 arg8 harg8 hc0 hc1 x0 x1 x2 x3 x4 xs0
      = k0_pay2 (k0_pay1 (k0_pay4 x0 x3 x1 x4 x2 xs0)) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread,
    harg6.read_unread, harg8.read_unread, View.ld_unit_zero (S := S1x128x32) hz3,
    View.ld_unit_zero (S := S128x128x32) hz3, View.ld_unit_zero (S := S1x128x1) hz3,
    View.ld_unit_zero (S := S128x1x128) hz3, View.ld_unit_zero (S := S1x128) hz2]

end Cert.TokKernel

end
-- ==== Proof.Payload.lean ====
/-
  One grid step's arithmetic, read at an output lane.
-/
import proofs.«136248_j62319975465252_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.TokKernel

open Cert.KernelIdeal Cert.KernelIdeal.Gen Idealize.ShloMosaic Idealize.ShloMosaic.ValueIdx

/-! ## The batched product's operand indices, axis by axis -/

theorem lhs_axis0 (i : S128x128x128.Idx) (q : dot_S128x128x32_S128x128x32_S128x128x128_2_2_1_1_0_0.contr.Idx) :
    (dot_S128x128x32_S128x128x32_S128x128x128_2_2_1_1_0_0.lhsIdx i q 0).val = (i 0).val := by
  unfold DotDims.lhsIdx
  rw [dif_pos (show (0 : Fin S128x128x32.rank) ∈ dot_S128x128x32_S128x128x32_S128x128x128_2_2_1_1_0_0.lhsBatch by decide)]
  rfl
theorem lhs_axis1 (i : S128x128x128.Idx) (q : dot_S128x128x32_S128x128x32_S128x128x128_2_2_1_1_0_0.contr.Idx) :
    (dot_S128x128x32_S128x128x32_S128x128x128_2_2_1_1_0_0.lhsIdx i q 1).val = (i 1).val := by
  unfold DotDims.lhsIdx
  rw [dif_neg (show ¬(1 : Fin S128x128x32.rank) ∈ dot_S128x128x32_S128x128x32_S128x128x128_2_2_1_1_0_0.lhsBatch by decide),
    dif_pos (show (1 : Fin S128x128x32.rank) ∈ dot_S128x128x32_S128x128x32_S128x128x128_2_2_1_1_0_0.lhsNonContracting by decide)]
  rfl
theorem lhs_axis2 (i : S128x128x128.Idx) (q : dot_S128x128x32_S128x128x32_S128x128x128_2_2_1_1_0_0.contr.Idx) :
    (dot_S128x128x32_S128x128x32_S128x128x128_2_2_1_1_0_0.lhsIdx i q 2).val = (q ⟨0, by decide⟩).val :=
  dot_S128x128x32_S128x128x32_S128x128x128_2_2_1_1_0_0.lhsIdx_val_of_single rfl i q
theorem rhs_axis0 (i : S128x128x128.Idx) (q : dot_S128x128x32_S128x128x32_S128x128x128_2_2_1_1_0_0.contr.Idx) :
    (dot_S128x128x32_S128x128x32_S128x128x128_2_2_1_1_0_0.rhsIdx i q 0).val = (i 0).val := by
  unfold DotDims.rhsIdx
  rw [dif_pos (show (0 : Fin S128x128x32.rank) ∈ dot_S128x128x32_S128x128x32_S128x128x128_2_2_1_1_0_0.rhsBatch by decide)]
  rfl
theorem rhs_axis1 (i : S128x128x128.Idx) (q : dot_S128x128x32_S128x128x32_S128x128x128_2_2_1_1_0_0.contr.Idx) :
    (dot_S128x128x32_S128x128x32_S128x128x128_2_2_1_1_0_0.rhsIdx i q 1).val = (i 2).val := by
  unfold DotDims.rhsIdx
  rw [dif_neg (show ¬(1 : Fin S128x128x32.rank) ∈ dot_S128x128x32_S128x128x32_S128x128x128_2_2_1_1_0_0.rhsBatch by decide),
    dif_pos (show (1 : Fin S128x128x32.rank) ∈ dot_S128x128x32_S128x128x32_S128x128x128_2_2_1_1_0_0.rhsNonContracting by decide)]
  rfl
theorem rhs_axis2 (i : S128x128x128.Idx) (q : dot_S128x128x32_S128x128x32_S128x128x128_2_2_1_1_0_0.contr.Idx) :
    (dot_S128x128x32_S128x128x32_S128x128x128_2_2_1_1_0_0.rhsIdx i q 2).val = (q ⟨0, by decide⟩).val :=
  dot_S128x128x32_S128x128x32_S128x128x128_2_2_1_1_0_0.rhsIdx_val_of_single rfl i q

/-- The batched product into the zero accumulator, read at document `b`, query token `r`, document token `k`:
    the inner product over the 32 features of row `(b, r)` of the left operand and row `(b, k)` of the right. -/
theorem scores_apply (x y : FVec Ideal S128x128x32 .bf16) (b r k : Fin 128) :
    matmul dot_S128x128x32_S128x128x32_S128x128x128_2_2_1_1_0_0 none x y (constant (F := Ideal) S128x128x128 .f32 0x00000000#32) (ix3 b r k)
      = ∑ d : Fin 32, x (ix3 b r d) * y (ix3 b k d) := by
  simp only [matmul]
  rw [Ideal.matmul_constant_zero_apply, ← Equiv.sum_comp (contrEquiv1 dot_S128x128x32_S128x128x32_S128x128x128_2_2_1_1_0_0 32 rfl rfl).symm]
  refine Finset.sum_congr rfl fun d _ => ?_
  have hd := contrEquiv1_symm_val dot_S128x128x32_S128x128x32_S128x128x128_2_2_1_1_0_0 32 rfl rfl d
  have el : dot_S128x128x32_S128x128x32_S128x128x128_2_2_1_1_0_0.lhsIdx (ix3 b r k) ((contrEquiv1 dot_S128x128x32_S128x128x32_S128x128x128_2_2_1_1_0_0 32 rfl rfl).symm d) = ix3 b r d := funext fun a => Fin.ext (by
    match a with
    | ⟨0, _⟩ => exact lhs_axis0 _ _
    | ⟨1, _⟩ => exact lhs_axis1 _ _
    | ⟨2, _⟩ => exact (lhs_axis2 _ _).trans hd)
  have er : dot_S128x128x32_S128x128x32_S128x128x128_2_2_1_1_0_0.rhsIdx (ix3 b r k) ((contrEquiv1 dot_S128x128x32_S128x128x32_S128x128x128_2_2_1_1_0_0 32 rfl rfl).symm d) = ix3 b k d := funext fun a => Fin.ext (by
    match a with
    | ⟨0, _⟩ => exact rhs_axis0 _ _
    | ⟨1, _⟩ => exact rhs_axis1 _ _
    | ⟨2, _⟩ => exact (rhs_axis2 _ _).trans hd)
  rw [el, er]

/-! ## The layout operations read at coordinates -/

/-- The query block `[1, 128, 32]` broadcast over the 128 documents reads its one leading slice everywhere. -/
theorem query_bcast_apply (x : FVec Ideal S1x128x32 .bf16) (h : S1x128x32.Broadcasts S128x128x32) (b r : Fin 128) (d : Fin 32) :
    broadcastTo S128x128x32 x h (ix3 b r d) = x (ix3 (0 : Fin 1) r d) := by
  refine broadcastTo_apply x h (ix3 b r d) (ix3 (0 : Fin 1) r d) fun a => ?_
  match a with
  | ⟨0, _⟩ => rfl
  | ⟨1, _⟩ => rfl
  | ⟨2, _⟩ => rfl

/-- The query ids `[1, 128, 1]` broadcast to `[128, 128, 128]` read the id of query token `r`. -/
theorem query_id_apply (x : IVec S1x128x1 32) (h : S1x128x1.Broadcasts S128x128x128) (b r k : Fin 128) :
    broadcastTo S128x128x128 x h (ix3 b r k) = x (ix3 (0 : Fin 1) r (0 : Fin 1)) := by
  refine broadcastTo_apply x h (ix3 b r k) (ix3 (0 : Fin 1) r (0 : Fin 1)) fun a => ?_
  match a with
  | ⟨0, _⟩ => rfl
  | ⟨1, _⟩ => rfl
  | ⟨2, _⟩ => rfl

/-- The document ids `[128, 1, 128]` broadcast to `[128, 128, 128]` read the id of token `k` of document `b`. -/
theorem doc_id_apply (x : IVec S128x1x128 32) (h : S128x1x128.Broadcasts S128x128x128) (b r k : Fin 128) :
    broadcastTo S128x128x128 x h (ix3 b r k) = x (ix3 b (0 : Fin 1) k) := by
  refine broadcastTo_apply x h (ix3 b r k) (ix3 b (0 : Fin 1) k) fun a => ?_
  match a with
  | ⟨0, _⟩ => rfl
  | ⟨1, _⟩ => rfl
  | ⟨2, _⟩ => rfl

/-- The weights: the column `[1, 128, 1]` cast to `[128, 1]`, then to the row `[1, 128]`, broadcast to
    `[128, 128]`, reads at `(b, r)` the weight of query token `r`. -/
theorem weights_apply (x : FVec Ideal S1x128x1 .f32) (h1 : S1x128x1.ShapeCasts S128x1) (h2 : S128x1.ShapeCasts S1x128)
    (h3 : S1x128.Broadcasts S128x128) (b r : Fin 128) :
    broadcastTo S128x128 (shapeCast S1x128 (shapeCast S128x1 x h1) h2) h3 (ix2 b r)
      = x (ix3 (0 : Fin 1) r (0 : Fin 1)) := by
  refine (broadcastTo_1b_ab_apply _ h3 b r).trans ?_
  refine (shapeCast_apply _ h2 (ix2 (0 : Fin 1) r) (ix2 r (0 : Fin 1)) (by
    rw [Shape.rowMajor_val_two, Shape.rowMajor_val_two]
    show r.val * 1 + 0 = 0 * 128 + r.val
    omega)).trans ?_
  exact shapeCast_1ab_ab_apply x h1 r (0 : Fin 1)

/-! ## The id-match mask at an index -/

theorem bit_toInt : ∀ c : BitVec 1, (c.setWidth 32).toInt = (c.toNat : Int) := by decide

/-- The mask `sitofp (extui (cmpi eq x y))` at an index: `1` where the two ids agree, else `0`. -/
theorem mask_apply (x y : IVec S128x128x128 32) (h : 1 < 32) (j : S128x128x128.Idx) :
    (sitofp .f32 (extui 32 (cmpi .eq x y) h) : FVec Ideal S128x128x128 .f32) j
      = (((IntOp.cmpi .eq (x j) (y j)).toNat : ℝ) : EReal) := by
  rw [sitofp_apply, extui_apply]
  show ((((IntOp.cmpi .eq (x j) (y j)).setWidth 32).toInt : ℝ) : EReal) = _
  rw [bit_toInt]
  norm_cast

/-! ## The two lane reductions at an index -/

/-- The maximum over the document tokens (axis 2), from `-∞`. -/
theorem rowmax_apply (w : FVec Ideal S128x128x128 .f32) (h : S128x128x128.Reduces [2] S128x128) (hφ : FKind.Formats .f32)
    (hacc : (0xFF800000#32 : BitVec 32) = FKind.maximumf.neutral .f32 hφ) (b r : Fin 128) :
    multiReduction (F := Ideal) .maximumf [2] S128x128 w 0xFF800000#32 h hφ hacc (ix2 b r)
      = (Finset.univ : Finset (Fin 128)).fold max (FloatOps.ofBits (F := Ideal) .f32 0xFF800000#32) (fun k => w (ix3 b r k)) := by
  refine (Ideal.multiReduction_maximumf_single w 0xFF800000#32 h hφ hacc (ix2 b r)).trans ?_
  have e : (w ∘ h.lift (ix2 b r)) = fun k : Fin 128 => w (ix3 b r k) := by
    funext k
    refine congrArg w (funext fun a => Fin.ext ?_)
    match a with
    | ⟨0, _⟩ => rfl
    | ⟨1, _⟩ => rfl
    | ⟨2, _⟩ => rfl
  rw [e]
  rfl

/-- The sum over the query tokens (axis 1). -/
theorem docsum_apply (u : FVec Ideal S128x128 .f32) (h : S128x128.Reduces [1] S128) (hφ : FKind.Formats .f32)
    (hacc : (0x00000000#32 : BitVec 32) = FKind.add.neutral .f32 hφ) (b : Fin 128) :
    multiReduction (F := Ideal) .add [1] S128 u 0x00000000#32 h hφ hacc (ix1 b)
      = ∑ r : Fin 128, u (ix2 b r) := by
  refine (Ideal.multiReduction_add_single u 0x00000000#32 h hφ hacc (ix1 b)).trans ?_
  refine Finset.sum_congr rfl fun r _ => ?_
  refine congrArg u (funext fun a => Fin.ext ?_)
  match a with
  | ⟨0, _⟩ => rfl
  | ⟨1, _⟩ => rfl

/-! ## The payload at an output lane -/

theorem pay4_apply (v3 : FVec Ideal S1x128x32 .bf16) (v5 : FVec Ideal S128x128x32 .bf16) (v11 : IVec S1x128x1 32)
    (v13 : IVec S128x1x128 32) (v23 : FVec Ideal S1x128x1 .f32) (v29 : FVec Ideal S1x128 .f32) (b : Fin 128) :
    k0_pay4 (F := Ideal) v3 v5 v11 v13 v23 v29 (ix2 (0 : Fin 1) b)
      = v29 (ix2 (0 : Fin 1) b) + ∑ r : Fin 128,
          (Finset.univ : Finset (Fin 128)).fold max (FloatOps.ofBits (F := Ideal) .f32 0xFF800000#32)
            (fun k => (∑ d : Fin 32, v3 (ix3 (0 : Fin 1) r d) * v5 (ix3 b k d))
                        * (((IntOp.cmpi .eq (v11 (ix3 (0 : Fin 1) r (0 : Fin 1))) (v13 (ix3 b (0 : Fin 1) k))).toNat : ℝ) : EReal))
          * v23 (ix3 (0 : Fin 1) r (0 : Fin 1)) := by
  unfold k0_pay4
  rw [shapeCast_shapeCast, shapeCast_self, shapeCast_self, shapeCast_shapeCast, shapeCast_self]
  rw [addf_apply]
  refine congrArg (v29 (ix2 (0 : Fin 1) b) + ·) ?_
  -- the cast [128] → [1, 128] and the sum over the query tokens
  refine (shapeCast_a_1a_apply _ _ (0 : Fin 1) b).trans ?_
  refine (docsum_apply _ _ _ _ b).trans ?_
  refine Finset.sum_congr rfl fun r _ => ?_
  rw [mulf_apply]
  refine congrArg₂ (· * ·) ?_ (weights_apply v23 _ _ _ b r)
  -- the maximum over the document tokens of the masked scores
  refine (rowmax_apply _ _ _ _ b r).trans ?_
  refine congrArg (fun f => Finset.fold max _ f Finset.univ) (funext fun k => ?_)
  rw [mulf_apply]
  refine congrArg₂ (· * ·) ?_ ?_
  · refine (scores_apply _ _ b r k).trans (Finset.sum_congr rfl fun d _ => ?_)
    rw [query_bcast_apply]
  · refine (mask_apply _ _ _ _).trans ?_
    rw [query_id_apply, doc_id_apply]

end Cert.TokKernel

end
-- ==== Proof.Blocks.lean ====
/-
  The blocks the pipeline hands the body at a grid point, read at an index of the arrays the region found.

  Grid point `t` (of 8 × 4 points, in row-major order) is query `t / 4`, block `t % 4` of its 512 tokens. Windows 0, 1 and 2
  hold rows `128 · (t % 4) … + 127` of query `t / 4`; windows 3 and 4 hold the whole document arrays at every point.
-/
import proofs.«136248_j62319975465252_1_alg».proof.Proof.Gen.KernelIdeal.Frame
import Idealize.ShloMosaic.Lib.ValueIdx
import Idealize.ShloMosaic.Lib.Pipeline.Value

noncomputable section

namespace Cert.TokKernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The blocks at point `t`, at their literal types. -/
abbrev qblk (c : Dev nD) (t : Fin cfg0.N) : FVec Ideal S1x128x32 .bf16 := iblk m c 0 t
abbrev qidblk (c : Dev nD) (t : Fin cfg0.N) : IVec S1x128x1 32 := iblk m c 1 t
abbrev wblk (c : Dev nD) (t : Fin cfg0.N) : FVec Ideal S1x128x1 .f32 := iblk m c 2 t
abbrev dblk (c : Dev nD) (t : Fin cfg0.N) : FVec Ideal S128x128x32 .bf16 := iblk m c 3 t
abbrev didblk (c : Dev nD) (t : Fin cfg0.N) : IVec S128x1x128 32 := iblk m c 4 t

/-- The arrays the region found, at their literal types. -/
abbrev qarr (c : Dev nD) : FVec Ideal S8x512x32 .bf16 := V m c main_v23
abbrev qidarr (c : Dev nD) : IVec S8x512x1 32 := V m c main_v25
abbrev warr (c : Dev nD) : FVec Ideal S8x512x1 .f32 := V m c main_v26
abbrev darr (c : Dev nD) : FVec Ideal S128x128x32 .bf16 := V m c main_v24
abbrev didarr (c : Dev nD) : IVec S128x1x128 32 := V m c main_v27

/-- Where each window's block sits at point `t`. -/
theorem idx_w0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_w1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx_w2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx_w3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx_w4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem idx_w5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)

/-- The query block's entry `(0, r, d)` is the query array's at `(t / 4, 128 · (t % 4) + r, d)`. -/
theorem qblk_apply (c : Dev nD) (t : Fin cfg0.N) (q : Fin 8) (s : Fin 512) (r : Fin 128) (d : Fin 32)
    (hq : q.val = t.val / 4) (hs : s.val = 128 * (t.val % 4) + r.val) :
    qblk m c t (ix3 (0 : Fin 1) r d) = qarr m c (ix3 q s d) := by
  unfold qblk iblk
  rw [View.read_apply]
  show V m c main_v23 _ = V m c main_v23 _
  congr 1
  funext a
  apply Fin.ext
  match a with
  | ⟨0, _⟩ => show win0_0.index t 0 * 1 + 1 * 0 = q.val; rw [(idx_w0 t).1]; omega
  | ⟨1, _⟩ => show win0_0.index t 1 * 128 + 1 * r.val = s.val; rw [(idx_w0 t).2.1]; omega
  | ⟨2, _⟩ => show win0_0.index t 2 * 32 + 1 * d.val = d.val; rw [(idx_w0 t).2.2]; omega

/-- The query-id block's entry `(0, r, 0)` is the id array's at `(t / 4, 128 · (t % 4) + r, 0)`. -/
theorem qidblk_apply (c : Dev nD) (t : Fin cfg0.N) (q : Fin 8) (s : Fin 512) (r : Fin 128)
    (hq : q.val = t.val / 4) (hs : s.val = 128 * (t.val % 4) + r.val) :
    qidblk m c t (ix3 (0 : Fin 1) r (0 : Fin 1)) = qidarr m c (ix3 q s (0 : Fin 1)) := by
  unfold qidblk iblk
  rw [View.read_apply]
  show V m c main_v25 _ = V m c main_v25 _
  congr 1
  funext a
  apply Fin.ext
  match a with
  | ⟨0, _⟩ => show win0_1.index t 0 * 1 + 1 * 0 = q.val; rw [(idx_w1 t).1]; omega
  | ⟨1, _⟩ => show win0_1.index t 1 * 128 + 1 * r.val = s.val; rw [(idx_w1 t).2.1]; omega
  | ⟨2, _⟩ => show win0_1.index t 2 * 1 + 1 * 0 = 0; rw [(idx_w1 t).2.2]

/-- The weight block's entry `(0, r, 0)` is the weight array's at `(t / 4, 128 · (t % 4) + r, 0)`. -/
theorem wblk_apply (c : Dev nD) (t : Fin cfg0.N) (q : Fin 8) (s : Fin 512) (r : Fin 128)
    (hq : q.val = t.val / 4) (hs : s.val = 128 * (t.val % 4) + r.val) :
    wblk m c t (ix3 (0 : Fin 1) r (0 : Fin 1)) = warr m c (ix3 q s (0 : Fin 1)) := by
  unfold wblk iblk
  rw [View.read_apply]
  show V m c main_v26 _ = V m c main_v26 _
  congr 1
  funext a
  apply Fin.ext
  match a with
  | ⟨0, _⟩ => show win0_2.index t 0 * 1 + 1 * 0 = q.val; rw [(idx_w2 t).1]; omega
  | ⟨1, _⟩ => show win0_2.index t 1 * 128 + 1 * r.val = s.val; rw [(idx_w2 t).2.1]; omega
  | ⟨2, _⟩ => show win0_2.index t 2 * 1 + 1 * 0 = 0; rw [(idx_w2 t).2.2]

/-- The document block is the whole document array, at every point. -/
theorem dblk_apply (c : Dev nD) (t : Fin cfg0.N) (b k : Fin 128) (d : Fin 32) :
    dblk m c t (ix3 b k d) = darr m c (ix3 b k d) := by
  unfold dblk iblk
  rw [View.read_apply]
  show V m c main_v24 _ = V m c main_v24 _
  congr 1
  funext a
  apply Fin.ext
  match a with
  | ⟨0, _⟩ => show win0_3.index t 0 * 128 + 1 * b.val = b.val; rw [(idx_w3 t).1]; omega
  | ⟨1, _⟩ => show win0_3.index t 1 * 128 + 1 * k.val = k.val; rw [(idx_w3 t).2.1]; omega
  | ⟨2, _⟩ => show win0_3.index t 2 * 32 + 1 * d.val = d.val; rw [(idx_w3 t).2.2]; omega

/-- The document-id block is the whole document-id array, at every point. -/
theorem didblk_apply (c : Dev nD) (t : Fin cfg0.N) (b k : Fin 128) :
    didblk m c t (ix3 b (0 : Fin 1) k) = didarr m c (ix3 b (0 : Fin 1) k) := by
  unfold didblk iblk
  rw [View.read_apply]
  show V m c main_v27 _ = V m c main_v27 _
  congr 1
  funext a
  apply Fin.ext
  match a with
  | ⟨0, _⟩ => show win0_4.index t 0 * 128 + 1 * b.val = b.val; rw [(idx_w4 t).1]; omega
  | ⟨1, _⟩ => show win0_4.index t 1 * 1 + 1 * 0 = 0; rw [(idx_w4 t).2.1]
  | ⟨2, _⟩ => show win0_4.index t 2 * 128 + 1 * k.val = k.val; rw [(idx_w4 t).2.2]; omega

end Cert.TokKernel

end
-- ==== Proof.HostPre.lean ====
/-
  The arrays the kernel region finds: what the host lines before it made of the arguments.

  Two arguments are rounded to a narrower float type (the identity on extended reals), three arrays are broadcasts that
  only add a unit axis, and the attention weights pass through a scatter that writes zero into column 0 of every row
  (the class token's weight) and leaves every other column as it was.
-/
import proofs.«136248_j62319975465252_1_alg».proof.Proof.Gen.KernelIdeal.Frame
import proofs.«136248_j62319975465252_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.TokKernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## A line of operations cut in two -/

/-- Running two lines one after the other is running their concatenation. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- A line run from `W` is its last operations run from what the first `n` leave. -/
theorem after_split (n : Nat) (l : List (HloOp τ sig (Elt Ideal))) (W : Valuation τ sig (Elt Ideal)) :
    StableHlo.after l W = StableHlo.after (l.drop n) (StableHlo.after (l.take n) W) := by
  rw [← after_append, List.take_append_drop]

/-! ## Each array as its operation's term -/

/-- `main_v26` is `main_v22` with a unit axis added: only the last two operations matter, whatever the first 35 left. -/
theorem V_v26_term (c : Dev nD) :
    V m c main_v26
      = (broadcastInDim S8x512x1 ![0, 1] bcast_S8x512_S8x512x1_0_1
          (V m c main_v22 : (⟨S8x512, .f32⟩ : BufTy).Contents (Elt Ideal))
          : (⟨S8x512x1, .f32⟩ : BufTy).Contents (Elt Ideal)) := by
  show StableHlo.after hostOps0 (fun b => m (c, b)) (Proc.devRef .tc main_v26)
    = broadcastInDim S8x512x1 ![0, 1] bcast_S8x512_S8x512x1_0_1 (StableHlo.after hostOps0 (fun b => m (c, b)) (Proc.devRef .tc main_v22))
  rw [after_split 35 hostOps0]
  generalize StableHlo.after (List.take 35 hostOps0) (fun b => m (c, b)) = W
  show StableHlo.after [_, _] W (Proc.devRef .tc main_v26)
    = broadcastInDim S8x512x1 ![0, 1] bcast_S8x512_S8x512x1_0_1 (StableHlo.after [_, _] W (Proc.devRef .tc main_v22))
  after_results

/-- `main_v22` is the scatter of `main_v21` into `main_v19` at the indices `main_v20`: only the last six operations
    matter, whatever the first 31 left. -/
theorem V_v22_term (c : Dev nD) :
    V m c main_v22
      = (Host.scatter scatter_S8x512_S1_S8_0_1_1_0 (fun _ b => b)
          (V m c main_v19 : (⟨S8x512, .f32⟩ : BufTy).Contents (Elt Ideal))
          (V m c main_v20 : (⟨S1, .i32⟩ : BufTy).Contents (Elt Ideal))
          (V m c main_v21 : (⟨S8, .f32⟩ : BufTy).Contents (Elt Ideal))
          : (⟨S8x512, .f32⟩ : BufTy).Contents (Elt Ideal)) := by
  show StableHlo.after hostOps0 (fun b => m (c, b)) (Proc.devRef .tc main_v22)
    = Host.scatter scatter_S8x512_S1_S8_0_1_1_0 (fun _ b => b)
        (StableHlo.after hostOps0 (fun b => m (c, b)) (Proc.devRef .tc main_v19))
        (StableHlo.after hostOps0 (fun b => m (c, b)) (Proc.devRef .tc main_v20))
        (StableHlo.after hostOps0 (fun b => m (c, b)) (Proc.devRef .tc main_v21))
  rw [after_split 31 hostOps0]
  generalize StableHlo.after (List.take 31 hostOps0) (fun b => m (c, b)) = W
  show StableHlo.after [_, _, _, _, _, _] W (Proc.devRef .tc main_v22)
    = Host.scatter scatter_S8x512_S1_S8_0_1_1_0 (fun _ b => b)
        (StableHlo.after [_, _, _, _, _, _] W (Proc.devRef .tc main_v19))
        (StableHlo.after [_, _, _, _, _, _] W (Proc.devRef .tc main_v20))
        (StableHlo.after [_, _, _, _, _, _] W (Proc.devRef .tc main_v21))
  after_results
  rfl

/-- The scatter's indices: the one index vector `[0]`. -/
theorem V_v20_term (c : Dev nD) :
    V m c main_v20 = (broadcastInDim S1 ![] bcast_S_S1 (constantI S_ 32 0#32) : (⟨S1, .i32⟩ : BufTy).Contents (Elt Ideal)) := by
  show StableHlo.after hostOps0 (fun b => m (c, b)) (Proc.devRef .tc main_v20) = _
  after_results

/-- The scatter's updates: eight copies of the float zero word. -/
theorem V_v21_term (c : Dev nD) :
    V m c main_v21 = (broadcastInDim S8 ![] bcast_S_S8 (constant (F := Ideal) S_ .f32 0x00000000#32) : (⟨S8, .f32⟩ : BufTy).Contents (Elt Ideal)) := by
  show StableHlo.after hostOps0 (fun b => m (c, b)) (Proc.devRef .tc main_v21) = _
  after_results

/-! ## The scatter: zero into column 0 of every row -/

/-- The scatter's dimension numbers as a closed record. -/
def d0 : ScatterDims ⟨2, ![8, 512]⟩ ⟨1, ![1]⟩ ⟨1, ![8]⟩ :=
  { updateWindowDims := [0], insertedWindowDims := [1], scatterDimsToOperandDims := [1], indexVectorDim := 0 }

theorem scatter_eq_d0 : scatter_S8x512_S1_S8_0_1_1_0 = d0 := rfl

/-- The updates are eight. -/
theorem numel_S8 : (⟨1, ![8]⟩ : Shape).numel = 8 := by decide

/-- Where update `n` lands under the one index vector `[0]`. -/
abbrev land (n : Fin (⟨1, ![8]⟩ : Shape).numel) : Option (⟨2, ![8, 512]⟩ : Shape).Idx :=
  d0.resultIdx? (w := 32) ((⟨1, ![8]⟩ : Shape).rowMajor.symm n) (fun _ => 0#32)

/-- Update `n` lands at row `n`, column `0`: a closed computation, the coordinates compared as naturals. -/
theorem land_coords : ∀ n : Fin (⟨1, ![8]⟩ : Shape).numel,
    (land n).map (fun i => ((i 0).val, (i 1).val)) = some (n.val, 0) := by
  decide

/-- The same as an index. -/
theorem land_eq (n : Fin (⟨1, ![8]⟩ : Shape).numel) :
    land n = some (ix2 (⟨n.val, n.isLt.trans_eq numel_S8⟩ : Fin 8) (0 : Fin 512)) := by
  have h := land_coords n
  cases hg : land n with
  | none => rw [hg] at h; cases h
  | some i =>
    rw [hg] at h
    have h2 := Prod.mk.inj (Option.some.inj h)
    rw [eq_ix2 i]
    congr 2
    · exact Fin.ext h2.1
    · exact Fin.ext h2.2

/-- One step of the scatter's fold when every update is zero: update `n` writes zero where it lands. -/
abbrev stepZ (r : (⟨2, ![8, 512]⟩ : Shape).Idx → EReal) (n : Fin (⟨1, ![8]⟩ : Shape).numel) :
    (⟨2, ![8, 512]⟩ : Shape).Idx → EReal :=
  match land n with
  | some i => fun i' => if i' = i then 0 else r i'
  | none => r

theorem stepZ_hit (i' : (⟨2, ![8, 512]⟩ : Shape).Idx) (r : (⟨2, ![8, 512]⟩ : Shape).Idx → EReal)
    (n : Fin (⟨1, ![8]⟩ : Shape).numel) (hn : land n = some i') : stepZ r n i' = 0 := by
  unfold stepZ
  rw [hn]
  exact if_pos rfl

theorem stepZ_miss (i' : (⟨2, ![8, 512]⟩ : Shape).Idx) (r : (⟨2, ![8, 512]⟩ : Shape).Idx → EReal)
    (n : Fin (⟨1, ![8]⟩ : Shape).numel) (hn : land n ≠ some i') : stepZ r n i' = r i' := by
  unfold stepZ
  cases hg : land n with
  | none => rfl
  | some i => exact if_neg (fun e => hn (by rw [hg, e]))

/-- A place where some update lands holds zero after the scatter. -/
theorem scatter_zero_hit (x : (⟨2, ![8, 512]⟩ : Shape).Idx → EReal) (i' : (⟨2, ![8, 512]⟩ : Shape).Idx)
    (h : ∃ n ∈ List.finRange (⟨1, ![8]⟩ : Shape).numel, land n = some i') :
    Host.scatter d0 (fun _ b => b) x (fun _ => 0#32) (fun _ => (0 : EReal)) i' = 0 :=
  (Cert.TokScore.foldl_write_apply land stepZ i' 0 (stepZ_hit i') (stepZ_miss i') _ x).trans (if_pos h)

/-- A place where no update lands keeps what it held. -/
theorem scatter_zero_miss (x : (⟨2, ![8, 512]⟩ : Shape).Idx → EReal) (i' : (⟨2, ![8, 512]⟩ : Shape).Idx)
    (h : ¬ ∃ n ∈ List.finRange (⟨1, ![8]⟩ : Shape).numel, land n = some i') :
    Host.scatter d0 (fun _ b => b) x (fun _ => 0#32) (fun _ => (0 : EReal)) i' = x i' :=
  (Cert.TokScore.foldl_write_apply land stepZ i' 0 (stepZ_hit i') (stepZ_miss i') _ x).trans (if_neg h)

/-- `main_v22` is `main_v19` with zeros scattered at the one index vector `[0]`: the indices are the constant `0`, and the
    float zero word is the extended real zero. -/
theorem V_v22_scatter (c : Dev nD) :
    (V m c main_v22 : S8x512.Idx → EReal)
      = Host.scatter d0 (fun _ b => b) (V m c main_v19 : S8x512.Idx → EReal) (fun _ => 0#32) (fun _ => (0 : EReal)) := by
  rw [V_v22_term m c, V_v20_term m c, V_v21_term m c, scatter_eq_d0]
  congr 1
  funext k
  rw [broadcastInDim_apply _ bcast_S_S8 _ k (fun a => a.elim0) (fun a => a.elim0)]
  exact Ideal.ofBits_zero_f32

/-! ## The arrays read at an index -/

theorem V_v23 (c : Dev nD) (i : S8x512x32.Idx) :
    (V m c main_v23 : S8x512x32.Idx → EReal) i = (m ((c : Thread nD τ).loc main_arg0) : S8x512x32.Idx → EReal) i := by
  have e : V m c main_v23
      = (truncf (F := Ideal) (s := S8x512x32) (φ := .f32) .bf16 (m ((c : Thread nD τ).loc main_arg0)) bitsLt_bf16_f32) := by
    show StableHlo.after hostOps0 (fun b => m (c, b)) (Proc.devRef .tc main_v23) = _
    after_results
  rw [e]
  rfl

theorem V_v24 (c : Dev nD) (i : S128x128x32.Idx) :
    (V m c main_v24 : S128x128x32.Idx → EReal) i = (m ((c : Thread nD τ).loc main_arg3) : S128x128x32.Idx → EReal) i := by
  have e : V m c main_v24
      = (truncf (F := Ideal) (s := S128x128x32) (φ := .f32) .bf16 (m ((c : Thread nD τ).loc main_arg3)) bitsLt_bf16_f32) := by
    show StableHlo.after hostOps0 (fun b => m (c, b)) (Proc.devRef .tc main_v24) = _
    after_results
  rw [e]
  rfl

theorem V_v25 (c : Dev nD) (q : Fin 8) (s : Fin 512) :
    (V m c main_v25 : S8x512x1.Idx → BitVec 32) (ix3 q s (0 : Fin 1))
      = (m ((c : Thread nD τ).loc main_arg1) : S8x512.Idx → BitVec 32) (ix2 q s) := by
  have e : V m c main_v25
      = (broadcastInDim S8x512x1 ![0, 1] bcast_S8x512_S8x512x1_0_1
          (m ((c : Thread nD τ).loc main_arg1) : (⟨S8x512, .i32⟩ : BufTy).Contents (Elt Ideal))
          : (⟨S8x512x1, .i32⟩ : BufTy).Contents (Elt Ideal)) := by
    show StableHlo.after hostOps0 (fun b => m (c, b)) (Proc.devRef .tc main_v25) = _
    after_results
  rw [e]
  exact broadcastInDim_apply _ bcast_S8x512_S8x512x1_0_1 _ (ix3 q s (0 : Fin 1)) (ix2 q s) (fun a => match a with
    | ⟨0, _⟩ => by show q.val = if (8 : Nat) = 1 then 0 else q.val; rw [if_neg (by decide)]
    | ⟨1, _⟩ => by show s.val = if (512 : Nat) = 1 then 0 else s.val; rw [if_neg (by decide)])

theorem V_v27 (c : Dev nD) (b t : Fin 128) :
    (V m c main_v27 : S128x1x128.Idx → BitVec 32) (ix3 b (0 : Fin 1) t)
      = (m ((c : Thread nD τ).loc main_arg4) : S128x128.Idx → BitVec 32) (ix2 b t) := by
  have e : V m c main_v27
      = (broadcastInDim S128x1x128 ![0, 2] bcast_S128x128_S128x1x128_0_2
          (m ((c : Thread nD τ).loc main_arg4) : (⟨S128x128, .i32⟩ : BufTy).Contents (Elt Ideal))
          : (⟨S128x1x128, .i32⟩ : BufTy).Contents (Elt Ideal)) := by
    show StableHlo.after hostOps0 (fun b => m (c, b)) (Proc.devRef .tc main_v27) = _
    after_results
  rw [e]
  exact broadcastInDim_apply _ bcast_S128x128_S128x1x128_0_2 _ (ix3 b (0 : Fin 1) t) (ix2 b t) (fun a => match a with
    | ⟨0, _⟩ => by show b.val = if (128 : Nat) = 1 then 0 else b.val; rw [if_neg (by decide)]
    | ⟨1, _⟩ => by show t.val = if (128 : Nat) = 1 then 0 else t.val; rw [if_neg (by decide)])

theorem V_v26 (c : Dev nD) (q : Fin 8) (s : Fin 512) :
    (V m c main_v26 : S8x512x1.Idx → EReal) (ix3 q s (0 : Fin 1)) = (V m c main_v22 : S8x512.Idx → EReal) (ix2 q s) := by
  rw [V_v26_term m c]
  exact broadcastInDim_apply _ bcast_S8x512_S8x512x1_0_1 _ (ix3 q s (0 : Fin 1)) (ix2 q s) (fun a => match a with
    | ⟨0, _⟩ => by show q.val = if (8 : Nat) = 1 then 0 else q.val; rw [if_neg (by decide)]
    | ⟨1, _⟩ => by show s.val = if (512 : Nat) = 1 then 0 else s.val; rw [if_neg (by decide)])

theorem V_v22_zero (c : Dev nD) (q : Fin 8) : (V m c main_v22 : S8x512.Idx → EReal) (ix2 q (0 : Fin 512)) = (0 : EReal) := by
  rw [V_v22_scatter m c]
  exact scatter_zero_hit _ _ ⟨Fin.cast numel_S8.symm q, List.mem_finRange _, land_eq _⟩

theorem V_v22_keep (c : Dev nD) (q : Fin 8) (s : Fin 512) (hs : s ≠ 0) :
    (V m c main_v22 : S8x512.Idx → EReal) (ix2 q s) = (V m c main_v19 : S8x512.Idx → EReal) (ix2 q s) := by
  rw [V_v22_scatter m c]
  refine scatter_zero_miss _ _ ?_
  rintro ⟨n, _, hn⟩
  rw [land_eq n] at hn
  have h1 : (0 : Fin 512) = s := congrFun (Option.some.inj hn) 1
  exact hs h1.symm

end Cert.TokKernel

end
-- ==== Proof.Accum.lean ====
/-
  The accumulator, point by point.

  At grid point `t` = query `q`, block `j`, the body adds block `j`'s weighted sum to the accumulator (which it first resets
  to zero when `j = 0`). So after point `4 q + j` the accumulator's lane `b` holds `accum q b j`, the sum of blocks
  `0 … j` of query `q` against document `b`; and at `j = 3` the same row is what the body stores to the output block.
-/
import proofs.«136248_j62319975465252_1_alg».proof.Proof.Spec
import proofs.«136248_j62319975465252_1_alg».proof.Proof.Pieces
import proofs.«136248_j62319975465252_1_alg».proof.Proof.Payload
import proofs.«136248_j62319975465252_1_alg».proof.Proof.Blocks
import proofs.«136248_j62319975465252_1_alg».proof.Proof.HostPre

noncomputable section

namespace Cert.TokKernel

open Cert.KernelIdeal Cert.KernelIdeal.Gen Idealize.ShloMosaic Idealize.ShloMosaic.TcCoe Idealize.SL.Sem
open Idealize.ShloMosaic.ValueIdx Cert.TokScore

variable (m : (ℓ : Loc nD τ sig) → Buf (Elt Ideal) ℓ)

/-- The arguments, and the weights the region found, at their literal types. -/
abbrev a0 (c : Dev nD) : FVec Ideal S8x512x32 .f32 := m ((c : Thread nD τ).loc main_arg0)
abbrev a1 (c : Dev nD) : IVec S8x512 32 := m ((c : Thread nD τ).loc main_arg1)
abbrev a3 (c : Dev nD) : FVec Ideal S128x128x32 .f32 := m ((c : Thread nD τ).loc main_arg3)
abbrev a4 (c : Dev nD) : IVec S128x128 32 := m ((c : Thread nD τ).loc main_arg4)
abbrev wts (c : Dev nD) : FVec Ideal S8x512 .f32 := V m c main_v22

/-- The reset value is the float zero word in every lane. -/
theorem pay3_apply (i : S1x128.Idx) : k0_pay3 (F := Ideal) i = FloatOps.ofBits (F := Ideal) .f32 0x00000000#32 := by
  unfold k0_pay3
  rw [shapeCast_self]
  rfl

/-- ONE STEP: at point `t` = (query `q`, block `j`) the body's new accumulator is the old one plus block `j`'s weighted sum,
    lane by lane: the blocks are rows `128 j … 128 j + 127` of query `q` and the whole document arrays. -/
theorem step_apply (c : Dev nD) (t : Fin cfg0.N) (q : Fin 8) (j : Fin 4) (hq : q.val = t.val / 4) (hj : j.val = t.val % 4)
    (acc : FVec Ideal S1x128 .f32) (b : Fin 128) :
    k0_pay1 (F := Ideal) (k0_pay4 (F := Ideal) (qblk m c t) (dblk m c t) (qidblk m c t) (didblk m c t) (wblk m c t) acc) (ix2 (0 : Fin 1) b)
      = acc (ix2 (0 : Fin 1) b) + blockSum (a0 m c) (a1 m c) (a3 m c) (a4 m c) (wts m c) q b j := by
  have hp1 : k0_pay1 (F := Ideal) (k0_pay4 (F := Ideal) (qblk m c t) (dblk m c t) (qidblk m c t) (didblk m c t) (wblk m c t) acc)
      = k0_pay4 (F := Ideal) (qblk m c t) (dblk m c t) (qidblk m c t) (didblk m c t) (wblk m c t) acc := by
    unfold k0_pay1; exact shapeCast_self _ _
  rw [hp1, pay4_apply]
  refine congrArg (acc (ix2 (0 : Fin 1) b) + ·) ?_
  unfold blockSum term tokMax sim hit
  refine Finset.sum_congr rfl fun r _ => ?_
  have hs : (row j r).val = 128 * (t.val % 4) + r.val := by show 128 * j.val + r.val = _; rw [hj]
  have e1 : ∀ (k : Fin 128) (d : Fin 32), qblk m c t (ix3 (0 : Fin 1) r d) * dblk m c t (ix3 b k d)
      = a0 m c (ix3 q (row j r) d) * a3 m c (ix3 b k d) := fun k d => by
    rw [qblk_apply m c t q (row j r) r d hq hs, dblk_apply m c t b k d]
    exact congrArg₂ (· * ·) (V_v23 m c _) (V_v24 m c _)
  have e2 : qidblk m c t (ix3 (0 : Fin 1) r (0 : Fin 1)) = a1 m c (ix2 q (row j r)) := by
    rw [qidblk_apply m c t q (row j r) r hq hs]; exact V_v25 m c q (row j r)
  have e3 : ∀ k : Fin 128, didblk m c t (ix3 b (0 : Fin 1) k) = a4 m c (ix2 b k) := fun k => by
    rw [didblk_apply m c t b k]; exact V_v27 m c b k
  have e4 : wblk m c t (ix3 (0 : Fin 1) r (0 : Fin 1)) = wts m c (ix2 q (row j r)) := by
    rw [wblk_apply m c t q (row j r) r hq hs]; exact V_v26 m c q (row j r)
  simp only [e1, e2, e3, e4]

/-- At the first point of a query's row (case A) the accumulator is reset and ends at the float zero word plus block 0's sum. -/
theorem scratch_first (c : Dev nD) (t : Fin cfg0.N) (h0 : t.val % 4 = 0) (q : Fin 8) (hq : q.val = t.val / 4) (b : Fin 128) :
    (outsAt0 m c t.val t.isLt).2 (ix2 (0 : Fin 1) b)
      = accum (a0 m c) (a1 m c) (a3 m c) (a4 m c) (wts m c) q b 0 (by decide) := by
  have h1 : ¬t.val % 4 = 3 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) ((hcond0_0 t).mpr h0) (fun h => h1 ((hcond0_1 t).mp h))
    (iblk m c 0 t) (iblk m c 1 t) (iblk m c 2 t) (iblk m c 3 t) (iblk m c 4 t)) (ix2 (0 : Fin 1) b)).trans ?_
  refine (step_apply m c t q ⟨0, by decide⟩ hq h0.symm (k0_pay3 (F := Ideal)) b).trans ?_
  rw [pay3_apply, accum_zero]

/-- At any later point of the row (cases B and C) the accumulator ends at what the point before left plus this block's sum. -/
theorem scratch_next (c : Dev nD) (t : Fin cfg0.N) (h0 : ¬t.val % 4 = 0) (q : Fin 8) (hq : q.val = t.val / 4) (j : Fin 4)
    (hj : j.val = t.val % 4) (b : Fin 128) :
    (outsAt0 m c t.val t.isLt).2 (ix2 (0 : Fin 1) b)
      = (outsAt0 m c (t.val - 1) (Nat.lt_of_le_of_lt (Nat.sub_le _ _) t.isLt)).2 (ix2 (0 : Fin 1) b)
        + blockSum (a0 m c) (a1 m c) (a3 m c) (a4 m c) (wts m c) q b j := by
  by_cases h1 : t.val % 4 = 3
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) (fun h => h0 ((hcond0_0 t).mp h)) ((hcond0_1 t).mpr h1)
      (iblk m c 0 t) (iblk m c 1 t) (iblk m c 2 t) (iblk m c 3 t) (iblk m c 4 t)
      (outsAt0 m c (t.val - 1) (Nat.lt_of_le_of_lt (Nat.sub_le _ _) t.isLt)).2) (ix2 (0 : Fin 1) b)).trans ?_
    exact step_apply m c t q j hq hj _ b
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t)
      (outsAt0 m c (t.val - 1) (Nat.lt_of_le_of_lt (Nat.sub_le _ _) t.isLt)).2) (ix2 (0 : Fin 1) b)).trans ?_
    exact step_apply m c t q j hq hj _ b

/-- THE ACCUMULATOR, POINT BY POINT: after point `4 q + j` lane `b` holds the sum of blocks `0 … j` of query `q` against
    document `b` — by induction on the point. -/
theorem scratch_eq (c : Dev nD) : ∀ (n : ℕ) (h : n < cfg0.N) (q : Fin 8) (j : ℕ) (hj : j < 4), n = 4 * q.val + j → ∀ b : Fin 128,
    (outsAt0 m c n h).2 (ix2 (0 : Fin 1) b) = accum (a0 m c) (a1 m c) (a3 m c) (a4 m c) (wts m c) q b j hj := by
  intro n
  induction n with
  | zero =>
    intro h q j hj e b
    obtain rfl : j = 0 := by omega
    exact scratch_first m c ⟨0, h⟩ rfl q (by show q.val = 0 / 4; omega) b
  | succ n ih =>
    intro h q j hj e b
    cases j with
    | zero => exact scratch_first m c ⟨n + 1, h⟩ (by show (n + 1) % 4 = 0; omega) q (by show q.val = (n + 1) / 4; omega) b
    | succ j' =>
      have h0 : ¬(n + 1) % 4 = 0 := by omega
      refine (scratch_next m c ⟨n + 1, h⟩ h0 q (by show q.val = (n + 1) / 4; omega) ⟨j' + 1, hj⟩ (by show j' + 1 = (n + 1) % 4; omega) b).trans ?_
      rw [accum_succ]
      exact congrArg (· + _) (ih (Nat.lt_of_succ_lt h) q j' (by omega) (by omega) b)

/-- The row `[1, 128]` stored as a `[1, 1, 128]` block keeps its lanes. -/
theorem pay2_apply (x : FVec Ideal S1x128 .f32) (b : Fin 128) :
    k0_pay2 (F := Ideal) x (ix3 (0 : Fin 1) (0 : Fin 1) b) = x (ix2 (0 : Fin 1) b) := by
  unfold k0_pay2
  refine shapeCast_apply x _ _ _ ?_
  rw [Shape.rowMajor_val_two, Shape.rowMajor_val_three]
  rfl

/-- At the last point of a query's row (case C) the output block's lane `b` is the accumulator's: the sum of all four blocks. -/
theorem out_eq (c : Dev nD) (t : Fin cfg0.N) (h3 : t.val % 4 = 3) (q : Fin 8) (hq : q.val = t.val / 4) (b : Fin 128) :
    (outsAt0 m c t.val t.isLt).1 (ix3 (0 : Fin 1) (0 : Fin 1) b)
      = accum (a0 m c) (a1 m c) (a3 m c) (a4 m c) (wts m c) q b 3 (by decide) := by
  have h0 : ¬t.val % 4 = 0 := by omega
  have hs := scratch_eq m c t.val t.isLt q 3 (by decide) (by omega) b
  rw [outsAt0_C m c t h0 h3] at hs ⊢
  dsimp only at hs ⊢
  refine Eq.trans ?_ hs
  refine (congrFun (out_C (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (fun h => h0 ((hcond0_0 t).mp h)) ((hcond0_1 t).mpr h3)
    (iblk m c 0 t) (iblk m c 1 t) (iblk m c 2 t) (iblk m c 3 t) (iblk m c 4 t)
    (outsAt0 m c (t.val - 1) (Nat.lt_of_le_of_lt (Nat.sub_le _ _) t.isLt)).2) (ix3 (0 : Fin 1) (0 : Fin 1) b)).trans ?_
  rw [pay2_apply]
  exact (congrFun (sout_C (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (fun h => h0 ((hcond0_0 t).mp h)) ((hcond0_1 t).mpr h3)
    (iblk m c 0 t) (iblk m c 1 t) (iblk m c 2 t) (iblk m c 3 t) (iblk m c 4 t)
    (outsAt0 m c (t.val - 1) (Nat.lt_of_le_of_lt (Nat.sub_le _ _) t.isLt)).2) (ix2 (0 : Fin 1) b)).symm

end Cert.TokKernel

end
-- ==== Proof.Final.lean ====
/-
  The region's result array after the run.

  Output window 5 is written back at the last point of each query's row only (points `4 q + 3`), and its block there is
  row `q` of the `[8, 1, 128]` result. These eight blocks tile the array, so it ends holding, at `(q, 0, b)`, the sum of all
  four blocks of query `q` against document `b`.
-/
import proofs.«136248_j62319975465252_1_alg».proof.Proof.Accum

noncomputable section

namespace Cert.TokKernel

open Cert.KernelIdeal Cert.KernelIdeal.Gen Idealize.ShloMosaic Idealize.ShloMosaic.TcCoe Idealize.SL.Sem
open Idealize.ShloMosaic.ValueIdx Cert.TokScore
open Idealize.ShloMosaic.Pipeline (Dat)

variable (m : (ℓ : Loc nD τ sig) → Buf (Elt Ideal) ℓ)

/-- What the result array ends holding: at `(q, 0, b)` the accumulated score of query `q` against document `b`. -/
def tokArr (c : Dev nD) : FVec Ideal S8x1x128 .f32 := fun i =>
  accum (a0 m c) (a1 m c) (a3 m c) (a4 m c) (wts m c) ⟨(i 0).val, (i 0).isLt⟩ ⟨(i 2).val, (i 2).isLt⟩ 3 (by decide)

/-- WHAT A WRITE-BACK WRITES: at a point that writes back (the last of a row) the block is row `t / 4` of `tokArr`. -/
theorem flushed_eq (c : Dev nD) (t : Fin cfg0.N) (hf : (cfg0.win 5).flush t = true) :
    (dats m 0 c).flushed 5 t = ((cfg0.win 5).blk t).view.read (Elt Ideal) (tokArr m c) := by
  have h3 : t.val % 4 = 3 := (flush0_5 t).mp hf
  have hN : cfg0.N = 32 := N_0
  show (cfg0.win 5).cut (grid0.coords t) ((dats m 0 c).after 5 t) = _
  rw [after0_5]
  suffices h : ∀ y : S1x1x128.Idx, (outsAt0 m c t.val t.isLt).1 y = tokArr m c (((cfg0.win 5).blk t).view.emb y) from funext h
  intro y
  obtain ⟨b, rfl⟩ : ∃ b : Fin 128, y = ix3 (0 : Fin 1) (0 : Fin 1) b := ⟨y 2, funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)⟩
  rw [out_eq m c t h3 ⟨t.val / 4, by omega⟩ rfl b]
  unfold tokArr
  have e0 : (((cfg0.win 5).blk t).view.emb (ix3 (0 : Fin 1) (0 : Fin 1) b) 0).val = t.val / 4 := by
    show win0_5.index t 0 * 1 + 1 * 0 = t.val / 4
    rw [(idx_w5 t).1]; omega
  have e2 : (((cfg0.win 5).blk t).view.emb (ix3 (0 : Fin 1) (0 : Fin 1) b) 2).val = b.val := by
    show win0_5.index t 2 * 128 + 1 * b.val = b.val
    rw [(idx_w5 t).2.2]; omega
  simp only [e0, e2]

/-- THE COVER: index `(q, 0, b)` of the result is in the block of point `4 q + 3`, which writes back. -/
theorem cover5 (c : Dev nD) (i : S8x1x128.Idx) :
    ∃ t : Fin cfg0.N, (cfg0.win 5).flush t = true ∧ i ∈ ((cfg0.win 5).blk t).view.set := by
  have hN : cfg0.N = 32 := N_0
  have hi0 : (i 0).val < 8 := (i 0).isLt
  have hi1 : (i 1).val < 1 := (i 1).isLt
  have hi2 : (i 2).val < 128 := (i 2).isLt
  obtain ⟨t, ht⟩ : ∃ t : Fin cfg0.N, t.val = 4 * (i 0).val + 3 := ⟨⟨4 * (i 0).val + 3, by omega⟩, rfl⟩
  refine ⟨t, (flush0_5 t).mpr (by omega), ?_⟩
  show i ∈ ((View.whole main_v28).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(idx_w5 t).1]; omega
  | ⟨1, _⟩ =>
    show win0_5.index t 1 * 1 ≤ (i 1).val ∧ (i 1).val < win0_5.index t 1 * 1 + 1
    rw [(idx_w5 t).2.1]; omega
  | ⟨2, _⟩ =>
    show win0_5.index t 2 * 128 ≤ (i 2).val ∧ (i 2).val < win0_5.index t 2 * 128 + 128
    rw [(idx_w5 t).2.2]; omega

/-- THE RESULT ARRAY after the run. -/
theorem final5 (c : Dev nD) : (dats m 0 c).arrAt 5 cfg0.N = tokArr m c :=
  (dats m 0 c).arrAt_eq_of_cover 5 (tokArr m c) (flushed_eq m c) (cover5 c)

end Cert.TokKernel

end
-- ==== Proof.KernelRun.lean ====
/-
  The idealized kernel's run, read: its result as one function of the arguments.

  After the region, the host lines re-shape the `[8, 1, 128]` token scores to `[8, 128]`, add the class-token scores (a
  product of the two class-token matrices), and take the maximum over the eight queries.
-/
import proofs.«136248_j62319975465252_1_alg».proof.Proof.Final
import Idealize.ShloMosaic.Lib.StableHlo.Run

noncomputable section

namespace Cert.TokKernel

open Cert.KernelIdeal Cert.KernelIdeal.Gen Idealize.ShloMosaic Idealize.ShloMosaic.TcCoe Idealize.SL.Sem
open Idealize.ShloMosaic.ValueIdx Cert.TokScore Idealize.ShloMosaic.StableHlo
open Idealize.ShloMosaic.Pipeline (Dat)

variable (m : (ℓ : Loc nD τ sig) → Buf (Elt Ideal) ℓ) (ρ : Dev nD → PrngReg)

/-- The host lines after the region, as one function of the token scores and the two class-token matrices. -/
def tail (T : FVec Ideal S8x128 .f32) (x5 : FVec Ideal S8x768 .f32) (x6 : FVec Ideal S128x768 .f32) : FVec Ideal S128 .f32 :=
  Host.reduce FloatOps.maximumf
    (addf T (Host.dotGeneral dot_S8x768_S768x128_S8x128_1_0_0_1_n_n none x5 (transpose S768x128 [1, 0] x6 transposes_S128x768_S768x128_1_0)))
    (constant (F := Ideal) S_ .f32 0xFF800000#32) reducesTo_S8x128_S128_d0 h_S_

/-- The kernel's result. -/
def result (c : Dev nD) : FVec Ideal S128 .f32 :=
  tail (shapeCast S8x128 (tokArr m c) shapeCasts_S8x1x128_S8x128) (m ((c : Thread nD τ).loc main_arg5)) (m ((c : Thread nD τ).loc main_arg6))

/-- What the host lines after the region leave in the result buffer. -/
theorem tail_eq (c : Dev nD) :
    Pipeline.afterTail₀ cfgs (dats m) 0 (V0 m) [hostOps1] c main_v33 = result m c := by
  unfold Pipeline.afterTail₀
  show StableHlo.after hostOps1 _ (Proc.devRef .tc main_v33) = _
  after_results
  have e28 : Pipeline.withArrays (cfgs 0).spec c (V0 m c) (fun w => (dats m 0 c).arrAt w (cfgs 0).N) (Proc.devRef .tc main_v28)
      = tokArr m c := (Pipeline.withArrays_arr spec0 launch0.win.arr_inj c _ _ 5).trans (final5 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  rw [e28, e5, e6]
  rfl

/-- THE RUN, READ: every weakly fair execution of the idealized kernel ends with the result buffer at `result` and the
    arguments unchanged. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.TokKernel

end
-- ==== Proof.Bridge.lean ====
/-
  The attention weights on the two sides are one array.

  Both programs first clear the separator position of each query's attention mask (one scatter, at an index computed from
  the mask's row sums) and convert the result to floats. The kernel's host lines and the reference's are the same
  operations of the same argument, so the two arrays are equal, whatever the scatter does.
-/
import proofs.«136248_j62319975465252_1_alg».proof.Proof.Gen.KernelIdeal.Frame
import proofs.«136248_j62319975465252_1_alg».proof.Proof.RefRead
import Idealize.ShloMosaic.Lib.StableHlo.Run

noncomputable section

namespace Cert.TokKernel

open Cert.KernelIdeal Cert.KernelIdeal.Gen Idealize.ShloMosaic Idealize.ShloMosaic.TcCoe Idealize.SL.Sem

variable {F : FTy → Type} [FloatOps F]

set_option maxRecDepth 8192 in
set_option maxHeartbeats 4000000 in
/-- The masked attention weights the kernel region finds are the reference's, as functions of the mask argument. -/
theorem V_v19_eq (m : (ℓ : Loc nD τ sig) → Buf (Elt F) ℓ) (c : Dev nD) :
    V m c main_v19 = Cert.ReferenceIdeal.ReadP.val_main_v28 (F := F) (m ((c : Thread nD τ).loc main_arg2)) := by
  show StableHlo.after hostOps0 (fun b => m (c, b)) (Proc.devRef .tc main_v19) = _
  after_results
  all_goals rfl

end Cert.TokKernel

end
-- ==== Proof.Claims.lean ====
/-
  The five claims.

  The three frames: the two kernels' are the generated frame certificates; the reference's is its run with the result
  dropped. The idealization rewrote nothing. The value claim: the idealized kernel's result is the host tail of its
  accumulated token scores, the reference's the same tail of the direct sums over tokens 1 … 511 — and the accumulated
  scores are those sums, since the kernel's weight for the class token is zero and its other weights are the reference's.
-/
import proofs.«136248_j62319975465252_1_alg».proof.Defs
import proofs.«136248_j62319975465252_1_alg».proof.Proof.Gen.Kernel.Frame
import proofs.«136248_j62319975465252_1_alg».proof.Proof.Gen.KernelIdeal.Frame
import proofs.«136248_j62319975465252_1_alg».proof.Proof.Gen.Pre_finite_inputs
import proofs.«136248_j62319975465252_1_alg».proof.Proof.RefRun
import proofs.«136248_j62319975465252_1_alg».proof.Proof.RefRead
import proofs.«136248_j62319975465252_1_alg».proof.Proof.RefSide
import proofs.«136248_j62319975465252_1_alg».proof.Proof.KernelRun
import proofs.«136248_j62319975465252_1_alg».proof.Proof.Bridge

noncomputable section

open Idealize.ShloMosaic Idealize.ShloMosaic.TcCoe Idealize.SL.Sem Idealize.ShloMosaic.ValueIdx

namespace Cert.Proof.TokClaims

open Cert.KernelIdeal Cert.KernelIdeal.Gen

variable (m : (ℓ : Loc nD τ sig) → Buf (Elt Ideal) ℓ)

/-- The reference's token score of query `q` against document `b` is the kernel's accumulated one: the kernel's weights are
    zero at the class token and the reference's elsewhere, so the accumulator after the four blocks is the direct sum. -/
theorem tok_agree (c : Dev nD) (q : Fin 8) (b : Fin 128) :
    Cert.ReferenceIdeal.ReadP.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 q b)
      = Cert.TokKernel.tokArr m c (ix3 q (0 : Fin 1) b) := by
  rw [Cert.TokRef.tok_eq]
  exact (Cert.TokScore.accum_three_eq_refT _ _ _ _
    (Cert.ReferenceIdeal.ReadP.val_main_v28 (F := Ideal) (m ((c : Thread nD τ).loc main_arg2))) (Cert.TokKernel.wts m c)
    (fun q => Cert.TokKernel.V_v22_zero m c q)
    (fun q s hs => (Cert.TokKernel.V_v22_keep m c q s hs).trans (congrFun (Cert.TokKernel.V_v19_eq m c) _)) q b).symm

/-- So the reference's result term, over the kernel's arguments, is the kernel's result: the same host tail of equal scores. -/
theorem result_eq (c : Dev nD) :
    Cert.ReferenceIdeal.ReadP.val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      = Cert.TokKernel.result m c := by
  have hT : Cert.ReferenceIdeal.ReadP.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = shapeCast S8x128 (Cert.TokKernel.tokArr m c) shapeCasts_S8x1x128_S8x128 := by
    funext i
    obtain ⟨q, b, rfl⟩ : ∃ (q : Fin 8) (b : Fin 128), i = ix2 q b := ⟨i 0, i 1, eq_ix2 i⟩
    rw [tok_agree]
    refine (shapeCast_apply (Cert.TokKernel.tokArr m c) shapeCasts_S8x1x128_S8x128 (ix2 q b) (ix3 q (0 : Fin 1) b) ?_).symm
    rw [Shape.rowMajor_val_three, Shape.rowMajor_val_two]
    show (q.val * 1 + 0) * 128 + b.val = q.val * 128 + b.val
    omega
  unfold Cert.ReferenceIdeal.ReadP.val_main_v37 Cert.ReferenceIdeal.ReadP.val_main_v36
  rw [hT]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments the two idealized programs end with equal results. -/
theorem algebraic : Cert.algebraic_KernelIdeal_ReferenceIdeal := by
  intro m ρ m' ρ' _ hagree
  refine ⟨fun c => Cert.TokKernel.result m c, Cert.TokKernel.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6⟩ := hagree c
  rw [h0, h1, h2, h3, h4, h5, h6]
  exact (Cert.ReferenceIdeal.ReadP.val_main_v37_eq _ _ _ _ _ _ _).trans (result_eq m c)

end Cert.Proof.TokClaims

end
-- ==== Proof.lean ====
/-
  The certificate of the token-match kernel against its reference: the kernel sums each query's weighted token scores in
  four blocks of 128 tokens, carrying an accumulator across grid points, with the class token kept at weight zero; the
  reference sums tokens 1 … 511 directly. Over the extended reals the two are one sum (Proof/Spec.lean), and everything
  around it — the matrix products, the id-match mask, the maximum over document tokens, the class-token scores and the
  final maximum over queries — is the same on both sides.
-/
import proofs.«136248_j62319975465252_1_alg».proof.Defs
import proofs.«136248_j62319975465252_1_alg».proof.Proof.Gen.Kernel
import proofs.«136248_j62319975465252_1_alg».proof.Proof.Gen.Kernel.Skeleton
import proofs.«136248_j62319975465252_1_alg».proof.Proof.Gen.Kernel.Launch
import proofs.«136248_j62319975465252_1_alg».proof.Proof.Gen.Kernel.Points
import proofs.«136248_j62319975465252_1_alg».proof.Proof.Gen.Kernel.Frame
import proofs.«136248_j62319975465252_1_alg».proof.Proof.Gen.KernelIdeal
import proofs.«136248_j62319975465252_1_alg».proof.Proof.Gen.KernelIdeal.Skeleton
import proofs.«136248_j62319975465252_1_alg».proof.Proof.Gen.KernelIdeal.Launch
import proofs.«136248_j62319975465252_1_alg».proof.Proof.Gen.KernelIdeal.Points
import proofs.«136248_j62319975465252_1_alg».proof.Proof.Gen.KernelIdeal.Frame
import proofs.«136248_j62319975465252_1_alg».proof.Proof.Gen.ReferenceIdeal
import proofs.«136248_j62319975465252_1_alg».proof.Proof.Gen.Pre_finite_inputs
import proofs.«136248_j62319975465252_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.TokClaims.frame_k, Cert.Proof.TokClaims.frame_ki, Cert.Proof.TokClaims.frame_ri, Cert.Proof.TokClaims.preserves,
  Cert.Proof.TokClaims.algebraic⟩

end Cert.Proof

end
